-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_1) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x512 : Shape := ⟨3, ![256, 64, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S256x64x512 : S_.BroadcastsInDim S256x64x512 (![] : Fin 0 → Fin S256x64x512.rank)
  reducesTo_S256x64x512_S_d0_1_2 : S256x64x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S256x64x512 .f32) (main_arg1 : FVec F S512x512 .f32) (main_arg2 : FVec F S512 .f32) (main_arg3 : FVec F S512x128 .f32) (main_arg4 : FVec F S128 .f32) : IVec S_ 1 :=
  let main_v0 : FVec F S256x64x512 .f32 := Host.absf main_arg0
  let main_cst : FVec F S_ .f32 := constant S_ .f32 0x7F800000#32
  let main_v1 : FVec F S256x64x512 .f32 := broadcastInDim S256x64x512 ![] bcast_S_S256x64x512 main_cst
  let main_v2 : IVec S256x64x512 1 := cmpf .olt main_v0 main_v1
  let main_c : IVec S_ 1 := constantI S_ 1 1#1
  let main_v3 : IVec S_ 1 := (fun x v => Host.reduce IntOp.andi x v reducesTo_S256x64x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S256x64x512 : Shape := ⟨3, ![256, 64, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S16384x512 : Shape := ⟨2, ![16384, 512]⟩
abbrev S1x512 : Shape := ⟨2, ![1, 512]⟩
abbrev S_ : Shape := ⟨0, ![]⟩
abbrev S512x256 : Shape := ⟨2, ![512, 256]⟩
abbrev S1 : Shape := ⟨1, ![1]⟩
abbrev S1x256 : Shape := ⟨2, ![1, 256]⟩
abbrev S1x128 : Shape := ⟨2, ![1, 128]⟩
abbrev S16384x128 : Shape := ⟨2, ![16384, 128]⟩
abbrev S256x128 : Shape := ⟨2, ![256, 128]⟩
abbrev S4096x512 : Shape := ⟨2, ![4096, 512]⟩
abbrev S4096x128 : Shape := ⟨2, ![4096, 128]⟩
abbrev S64x128 : Shape := ⟨2, ![64, 128]⟩
abbrev S4096x256 : Shape := ⟨2, ![4096, 256]⟩
abbrev S64x64x128 : Shape := ⟨3, ![64, 64, 128]⟩
abbrev S256x64x128 : Shape := ⟨3, ![256, 64, 128]⟩

abbrev nBuf : Space → Nat
  | .hbm => 21
  | .vmem => 10
  | .smem => 0
  | _ => 0

abbrev bufTy : (tb : Table) → Fin (tcTables nBuf tb) → BufTy
  | .hbm, ⟨0, _⟩ => ⟨S256x64x512, .f32⟩
  | .hbm, ⟨1, _⟩ => ⟨S512x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S16384x512, .f32⟩
  | .hbm, ⟨6, _⟩ => ⟨S1x512, .f32⟩
  | .hbm, ⟨7, _⟩ => ⟨S_, .f32⟩
  | .hbm, ⟨8, _⟩ => ⟨S512x256, .f32⟩
  | .hbm, ⟨9, _⟩ => ⟨S_, .i32⟩
  | .hbm, ⟨10, _⟩ => ⟨S1, .i32⟩
  | .hbm, ⟨11, _⟩ => ⟨S512x256, .f32⟩
  | .hbm, ⟨12, _⟩ => ⟨S_, .f32⟩
  | .hbm, ⟨13, _⟩ => ⟨S1x256, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S1x256, .f32⟩
  | .hbm, ⟨18, _⟩ => ⟨S16384x128, .f32⟩
  | .hbm, ⟨19, _⟩ => ⟨S256x128, .f32⟩
  | .hbm, ⟨20, _⟩ => ⟨S256x64x128, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S4096x128, .f32⟩
  | .local _ .vmem, ⟨7, _⟩ => ⟨S4096x128, .f32⟩
  | .local _ .vmem, ⟨8, _⟩ => ⟨S64x128, .f32⟩
  | .local _ .vmem, ⟨9, _⟩ => ⟨S64x128, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256x64x512_S16384x512 : S256x64x512.ShapeCasts S16384x512
  shapeCasts_S512_S1x512 : S512.ShapeCasts S1x512
  bcast_S_S512x256 : S_.BroadcastsInDim S512x256 (![] : Fin 0 → Fin S512x256.rank)
  bcast_S_S1 : S_.BroadcastsInDim S1 (![] : Fin 0 → Fin S1.rank)
  bcast_S_S1x256 : S_.BroadcastsInDim S1x256 (![] : Fin 0 → Fin S1x256.rank)
  shapeCasts_S128_S1x128 : S128.ShapeCasts S1x128
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S4096x256_o0_0_S4096x128 : S4096x256.Slices ![0, 0] S4096x128
  inb_S4096x128_S4096x128_0_0 : ∀ a, (![0, 0] : Fin 2 → Nat) a + S4096x128.size a ≤ S4096x128.size a
  h_S4096x128 : 0 < S4096x128.numel
  shapeCasts_S4096x128_S64x64x128 : S4096x128.ShapeCasts S64x64x128
  reduces_S64x64x128_S64x128 : S64x64x128.Reduces [1] S64x128
  inb_S64x128_S64x128_0_0 : ∀ a, (![0, 0] : Fin 2 → Nat) a + S64x128.size a ≤ S64x128.size a
  h_S64x128 : 0 < S64x128.numel
  shapeCasts_S16384x128_S256x64x128 : S16384x128.ShapeCasts S256x64x128
  scatter_S512x256_S1_S512x128_01_n_1_0_wf : ScatterDims.WF S512x256 S1 S512x128 [0, 1] [] [1] 0
  scatter_S1x256_S1_S1x128_01_n_1_0_wf : ScatterDims.WF S1x256 S1 S1x128 [0, 1] [] [1] 0
  dot_S4096x512_S512x512_S4096x512_1_0_0_1_n_n_wf : DotDims.WF S4096x512 S512x512 S4096x512 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S16384x128.size a
  hwx0_5 : ∀ i : grid0.Coords, EltTy.bits .f32 = 32 ∨ (Rect.block (s := S16384x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S256x128.size a
  hwx0_6 : ∀ i : grid0.Coords, EltTy.bits .f32 = 32 ∨ (Rect.block (s := S256x128) S64x128.size (cc0_transform_6 i) (hinb0_6 i)).WholeWords (EltTy.packing .f32)

variable [Facts₀]

def scatter_S512x256_S1_S512x128_01_n_1_0 : ScatterDims S512x256 S1 S512x128 where
  updateWindowDims := [0, 1]
  insertedWindowDims := []
  scatterDimsToOperandDims := [1]
  indexVectorDim := 0
  wf := scatter_S512x256_S1_S512x128_01_n_1_0_wf
def scatter_S1x256_S1_S1x128_01_n_1_0 : ScatterDims S1x256 S1 S1x128 where
  updateWindowDims := [0, 1]
  insertedWindowDims := []
  scatterDimsToOperandDims := [1]
  indexVectorDim := 0
  wf := scatter_S1x256_S1_S1x128_01_n_1_0_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x64x512 : Shape := ⟨3, ![256, 64, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S16384x512 : Shape := ⟨2, ![16384, 512]⟩
abbrev S1x512 : Shape := ⟨2, ![1, 512]⟩
abbrev S1x128 : Shape := ⟨2, ![1, 128]⟩
abbrev S8 : Shape := ⟨1, ![8]⟩
abbrev S8x1 : Shape := ⟨2, ![8, 1]⟩
abbrev S_ : Shape := ⟨0, ![]⟩
abbrev S8x512 : Shape := ⟨2, ![8, 512]⟩
abbrev S16384x128 : Shape := ⟨2, ![16384, 128]⟩
abbrev S256x128 : Shape := ⟨2, ![256, 128]⟩
abbrev S8x128 : Shape := ⟨2, ![8, 128]⟩
abbrev S256x64x128 : Shape := ⟨3, ![256, 64, 128]⟩

abbrev nBuf : Space → Nat
  | .hbm => 41
  | .vmem => 11
  | .smem => 0
  | _ => 0

abbrev bufTy : (tb : Table) → Fin (tcTables nBuf tb) → BufTy
  | .hbm, ⟨0, _⟩ => ⟨S256x64x512, .f32⟩
  | .hbm, ⟨1, _⟩ => ⟨S512x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S16384x512, .f32⟩
  | .hbm, ⟨6, _⟩ => ⟨S1x512, .f32⟩
  | .hbm, ⟨7, _⟩ => ⟨S1x128, .f32⟩
  | .hbm, ⟨8, _⟩ => ⟨S8, .i32⟩
  | .hbm, ⟨9, _⟩ => ⟨S8x1, .i32⟩
  | .hbm, ⟨10, _⟩ => ⟨S512, .i32⟩
  | .hbm, ⟨11, _⟩ => ⟨S1x512, .i32⟩
  | .hbm, ⟨12, _⟩ => ⟨S_, .i32⟩
  | .hbm, ⟨13, _⟩ => ⟨S_, .i32⟩
  | .hbm, ⟨14, _⟩ => ⟨S1x512, .i32⟩
  | .hbm, ⟨15, _⟩ => ⟨S1x512, .i32⟩
  | .hbm, ⟨16, _⟩ => ⟨S1x512, .i32⟩
  | .hbm, ⟨17, _⟩ => ⟨S_, .i32⟩
  | .hbm, ⟨18, _⟩ => ⟨S1x512, .i32⟩
  | .hbm, ⟨19, _⟩ => ⟨S1x512, .i1⟩
  | .hbm, ⟨20, _⟩ => ⟨S1x512, .i32⟩
  | .hbm, ⟨21, _⟩ => ⟨S1x512, .i32⟩
  | .hbm, ⟨22, _⟩ => ⟨S_, .i32⟩
  | .hbm, ⟨23, _⟩ => ⟨S1x512, .i32⟩
  | .hbm, ⟨24, _⟩ => ⟨S1x512, .i1⟩
  | .hbm, ⟨25, _⟩ => ⟨S1x512, .i1⟩
  | .hbm, ⟨26, _⟩ => ⟨S_, .i32⟩
  | .hbm, ⟨27, _⟩ => ⟨S1x512, .i32⟩
  | .hbm, ⟨28, _⟩ => ⟨S1x512, .i32⟩
  | .hbm, ⟨29, _⟩ => ⟨S1x512, .i32⟩
  | .hbm, ⟨30, _⟩ => ⟨S8x512, .i32⟩
  | .hbm, ⟨31, _⟩ => ⟨S8x512, .i32⟩
  | .hbm, ⟨32, _⟩ => ⟨S8x512, .i1⟩
  | .hbm, ⟨33, _⟩ => ⟨S_, .f32⟩
  | .hbm, ⟨34, _⟩ => ⟨S_, .f32⟩
  | .hbm, ⟨35, _⟩ => ⟨S8x512, .f32⟩
  | .hbm, ⟨36, _⟩ => ⟨S8x512, .f32⟩
  | .hbm, ⟨37, _⟩ => ⟨S8x512, .f32⟩
  | .hbm, ⟨38, _⟩ => ⟨S16384x128, .f32⟩
  | .hbm, ⟨39, _⟩ => ⟨S256x128, .f32⟩
  | .hbm, ⟨40, _⟩ => ⟨S256x64x128, .f32⟩
  | .local _ .vmem, ⟨0, _⟩ => ⟨S8x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S8x128, .f32⟩
  | .local _ .vmem, ⟨10, _⟩ => ⟨S8x128, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev main_v13 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x64x512_S16384x512 : S256x64x512.ShapeCasts S16384x512
  shapeCasts_S512_S1x512 : S512.ShapeCasts S1x512
  shapeCasts_S128_S1x128 : S128.ShapeCasts S1x128
  bcast_S8_S8x1_0 : S8.BroadcastsInDim S8x1 (![0] : Fin 1 → Fin S8x1.rank)
  bcast_S512_S1x512_1 : S512.BroadcastsInDim S1x512 (![1] : Fin 1 → Fin S1x512.rank)
  bcast_S_S1x512 : S_.BroadcastsInDim S1x512 (![] : Fin 0 → Fin S1x512.rank)
  bcast_S8x1_S8x512_0_1 : S8x1.BroadcastsInDim S8x512 (![0, 1] : Fin 2 → Fin S8x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x128_S8x128_0_0 : ∀ a, (![0, 0] : Fin 2 → Nat) a + S8x128.size a ≤ S8x128.size a
  h_S8x128 : 0 < S8x128.numel
  shapeCasts_S16384x128_S256x64x128 : S16384x128.ShapeCasts S256x64x128
  dot_S512x512_S512x512_S512x512_1_0_0_1_n_n_wf : DotDims.WF S512x512 S512x512 S512x512 [1] [0] [0] [1] [] []
  dot_S512x512_S512x128_S512x128_1_0_0_1_n_n_wf : DotDims.WF S512x512 S512x128 S512x128 [1] [0] [0] [1] [] []
  dot_S8x512_S512x128_S8x128_1_0_0_1_n_n_wf : DotDims.WF S8x512 S512x128 S8x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x512.size a
  hwx0_0 : ∀ i : grid0.Coords, EltTy.bits .f32 = 32 ∨ (Rect.block (s := S8x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S16384x128.size a
  hwx0_6 : ∀ i : grid0.Coords, EltTy.bits .f32 = 32 ∨ (Rect.block (s := S16384x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S256x128.size a
  hwx0_7 : ∀ i : grid0.Coords, EltTy.bits .f32 = 32 ∨ (Rect.block (s := S256x128) S8x128.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

abbrev win0_0 : Pipeline.Window sig grid0 :=
  Pipeline.Window.ofSpec (Memref.whole main_v11) S8x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S512x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Spec.lean ====
/-
  The multiple-instance model as one function of its arrays, entry by entry, on the extended reals.

  A bag is 64 rows of 512 features. Each row x goes through a hidden layer, h_j = max (Σ_k x_k · W1[k, j] + b1[j], 0),
  and a linear classifier, score_q = Σ_j h_j · W2[j, q] + b2[q] (128 classes). The instance array holds the scores
  of all 16384 rows; the bag array holds, for each of the 256 bags and each class, the sum of the scores of the bag's
  64 rows times 1/64 (the pattern 0x3C800000).
-/
import Idealize.ShloMosaic.PureOps.Ideal
import Idealize.ShloMosaic.Lib.ValueIdx

noncomputable section

namespace Cert.MilSpec

open Idealize.ShloMosaic Idealize.ShloMosaic.ValueIdx

/-- The extended reals the f32 patterns of zero and of 1/64 denote (never evaluated: the same words on both sides). -/
abbrev zeroE : EReal := Ideal.ofBits .f32 0x00000000#32
abbrev invE : EReal := Ideal.ofBits .f32 0x3C800000#32

/-- Hidden unit `j` of a row `xr`: the rectified affine form. -/
def hid (xr : Fin 512 → EReal) (w1 : (⟨2, ![512, 512]⟩ : Shape).Idx → EReal) (b1 : (⟨2, ![1, 512]⟩ : Shape).Idx → EReal)
    (j : Fin 512) : EReal :=
  max (∑ k : Fin 512, xr k * w1 (ix2 k j) + b1 (ix2 (0 : Fin 1) j)) zeroE

/-- Class `q`'s score of a row: the affine form of its hidden units. -/
def score (xr : Fin 512 → EReal) (w1 : (⟨2, ![512, 512]⟩ : Shape).Idx → EReal) (b1 : (⟨2, ![1, 512]⟩ : Shape).Idx → EReal)
    (w2 : Fin 512 → Fin 128 → EReal) (b2 : Fin 128 → EReal) (q : Fin 128) : EReal :=
  ∑ j : Fin 512, hid xr w1 b1 j * w2 j q + b2 q

/-- The instance array: row `r`, class `q`. -/
def inst (x : (⟨2, ![16384, 512]⟩ : Shape).Idx → EReal) (w1 : (⟨2, ![512, 512]⟩ : Shape).Idx → EReal)
    (b1 : (⟨2, ![1, 512]⟩ : Shape).Idx → EReal) (w2 : Fin 512 → Fin 128 → EReal) (b2 : Fin 128 → EReal) :
    (⟨2, ![16384, 128]⟩ : Shape).Idx → EReal :=
  fun i => score (fun k => x (ix2 (i 0) k)) w1 b1 w2 b2 (i 1)

/-- Row `64 b + j` of the 16384 rows, for a bag `b` and a position `j` in it. -/
def bagRow (b : Fin 256) (j : Fin 64) : Fin 16384 := ⟨64 * b.val + j.val, by have := b.isLt; have := j.isLt; omega⟩

/-- The bag array: bag `b`, class `q`: the sum over the bag's rows, times 1/64. -/
def bag (x : (⟨2, ![16384, 512]⟩ : Shape).Idx → EReal) (w1 : (⟨2, ![512, 512]⟩ : Shape).Idx → EReal)
    (b1 : (⟨2, ![1, 512]⟩ : Shape).Idx → EReal) (w2 : Fin 512 → Fin 128 → EReal) (b2 : Fin 128 → EReal) :
    (⟨2, ![256, 128]⟩ : Shape).Idx → EReal :=
  fun i => (∑ j : Fin 64, inst x w1 b1 w2 b2 (ix2 (bagRow (i 0) j) (i 1))) * invE

end Cert.MilSpec

end
-- ==== Proof.KernelPay.lean ====
/-
  The kernel's two stored values read at an entry.

  The first store holds, at (p, q) of a block of 4096 rows, the score of class q of row p: the second product runs
  over a classifier padded to 256 columns, of which the store keeps the first 128, so only columns below 128 of the
  padded matrix and of the padded bias are read. The second store holds, at (b, q), the sum over the 64 rows of bag b
  of the block of those scores, times 1/64.
-/
import proofs.«176992_g2000502745572654_pallasbulk_917_18_alg».proof.Proof.Gen.KernelIdeal.Skeleton
import proofs.«176992_g2000502745572654_pallasbulk_917_18_alg».proof.Proof.LibDense
import proofs.«176992_g2000502745572654_pallasbulk_917_18_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.MilSpec

variable [Cert.KernelIdeal.Facts]

/-- Column q < 128 among the 256 padded columns. -/
abbrev padCol (q : Fin 128) : Fin 256 := ⟨q.val, by have := q.isLt; omega⟩

/-- Entry (p, q) of the first stored value is the score of class q of row p of the block. -/
theorem pay1_apply (v0 : Vec Ideal S4096x512 .f32) (v2 : Vec Ideal S512x512 .f32) (v4 : Vec Ideal S1x512 .f32)
    (v10 : Vec Ideal S512x256 .f32) (v13 : Vec Ideal S1x256 .f32) (p : Fin 4096) (q : Fin 128) :
    k0_pay1 (F := Ideal) v0 v2 v4 v10 v13 (ix2 p q)
      = score (fun k => v0 (ix2 p k)) v2 v4 (fun j c => v10 (ix2 j (padCol c))) (fun c => v13 (ix2 (0 : Fin 1) (padCol c))) q := by
  unfold k0_pay1
  simp only [shapeCast_self]
  rw [slice2_axis1_apply 0 _ slices_S4096x256_o0_0_S4096x128 p q (padCol q) (Nat.zero_add _).symm,
    addf_apply, broadcastTo_1b_ab_apply]
  simp only [matmul]
  rw [Cert.LibDense.matmul_zero_apply _ none rfl rfl rfl rfl rfl rfl]
  unfold score
  congr 1
  refine Finset.sum_congr rfl fun j _ => ?_
  congr 1
  unfold hid
  rw [maximumf_apply, addf_apply, broadcastTo_1b_ab_apply, broadcast_apply,
    Cert.LibDense.matmul_zero_apply _ none rfl rfl rfl rfl rfl rfl]
  rfl

/-- Row `64 b + j` of the block's 4096 rows. -/
abbrev blkRow (b : Fin 64) (j : Fin 64) : Fin 4096 := ⟨64 * b.val + j.val, by have := b.isLt; have := j.isLt; omega⟩

/-- Entry (b, q) of the second stored value: the sum of the first stored value over the 64 rows of bag b, times 1/64. -/
theorem pay2_apply (v0 : Vec Ideal S4096x512 .f32) (v2 : Vec Ideal S512x512 .f32) (v4 : Vec Ideal S1x512 .f32)
    (v10 : Vec Ideal S512x256 .f32) (v13 : Vec Ideal S1x256 .f32) (b : Fin 64) (q : Fin 128) :
    k0_pay2 (F := Ideal) v0 v2 v4 v10 v13 (ix2 b q)
      = (∑ j : Fin 64, k0_pay1 (F := Ideal) v0 v2 v4 v10 v13 (ix2 (blkRow b j) q)) * invE := by
  unfold k0_pay2
  rw [mulf_apply, broadcast_apply]
  refine congrArg (· * invE) ?_
  refine (Ideal.multiReduction_add_single _ 0x00000000#32 reduces_S64x64x128_S64x128 (.inl rfl) rfl (ix2 b q)).trans ?_
  refine Finset.sum_congr rfl fun j _ => ?_
  refine shapeCast_apply _ _ _ (ix2 (blkRow b j) q) ?_
  rw [Shape.rowMajor_val_two, Shape.rowMajor_val_three]
  show (64 * b.val + j.val) * 128 + q.val = (b.val * 64 + j.val) * 128 + q.val
  omega

end Cert.KernelIdeal.Pay

end
-- ==== Proof.PadScatter.lean ====
/-
  A "set" scatter of one window placed at start index 0, read at an index inside the window.

  The scatter is a left fold, over the update indices in row-major order, of pointwise overwrites:
  update index j replaces the operand's element at its result index (start + window coordinate)
  by the update's element at j.  Read at ONE operand index i, such a fold over a list without
  repeats is decided by the elements that land at i: if none does the value is the initial one,
  and if exactly one does it is that element's overwrite.  For the dimension numbers here (both
  update axes window axes, no inserted axis, the single start component on the column axis) and a
  start index whose one word is 0, the start is 0 on both axes and the window coordinate of j on
  axis a is j's coordinate, so the result index of j is the operand index with the same two
  coordinates; distinct update indices land at distinct operand indices, and the update index
  with i's coordinates is the only one landing at i.  Row-major numbering is a bijection between
  the update indices and the positions the fold runs over, so the fold is never evaluated.
-/
import proofs.«176992_g2000502745572654_pallasbulk_917_18_alg».proof.KernelIdeal
import Idealize.ShloMosaic.PureOps.ShapeOps
import Mathlib.Data.List.Nodup
import Mathlib.Logic.Equiv.Defs

noncomputable section
open Idealize.ShloMosaic

namespace Cert.KernelIdeal.PadScatter

/-! ## A fold of pointwise overwrites, read at one index -/

section Fold
variable {ι κ β : Type} [DecidableEq ι]

/-- One step of the fold: element n overwrites the function at g n (when g n is an index) with
    f (old value) (v n), and does nothing when g n is none. -/
def step (g : κ → Option ι) (f : β → β → β) (v : κ → β) (r : ι → β) (n : κ) : ι → β :=
  match g n with
  | some i0 => fun i' => if i' = i0 then f (r i0) (v n) else r i'
  | none => r

theorem step_of_ne (g : κ → Option ι) (f : β → β → β) (v : κ → β) (r : ι → β) (n : κ) (i : ι)
    (h : g n ≠ some i) : step g f v r n i = r i := by
  unfold step
  cases hg : g n with
  | none => rfl
  | some i0 =>
    have hne : i ≠ i0 := fun e => h (by rw [hg, e])
    exact if_neg hne

theorem step_of_eq (g : κ → Option ι) (f : β → β → β) (v : κ → β) (r : ι → β) (n : κ) (i : ι)
    (h : g n = some i) : step g f v r n i = f (r i) (v n) := by
  unfold step
  rw [h]
  exact if_pos rfl

/-- No element of the list lands at i: the fold leaves the value at i alone. -/
theorem foldl_miss (g : κ → Option ι) (f : β → β → β) (v : κ → β) (i : ι) :
    ∀ (l : List κ) (x : ι → β), (∀ n ∈ l, g n ≠ some i) → l.foldl (step g f v) x i = x i
  | [], _, _ => rfl
  | n :: l, x, h => by
    rw [List.foldl_cons, foldl_miss g f v i l _ (fun m hm => h m (List.mem_cons_of_mem _ hm)),
      step_of_ne g f v x n i (h n List.mem_cons_self)]

/-- Exactly one element n of a list without repeats lands at i: the fold's value at i is that
    element's overwrite of the initial value. -/
theorem foldl_hit (g : κ → Option ι) (f : β → β → β) (v : κ → β) (i : ι) (n : κ) (hn : g n = some i) :
    ∀ (l : List κ) (x : ι → β), l.Nodup → n ∈ l → (∀ m ∈ l, g m = some i → m = n) →
      l.foldl (step g f v) x i = f (x i) (v n)
  | [], _, _, hmem, _ => absurd hmem List.not_mem_nil
  | m :: l, x, hnd, hmem, huniq => by
    rw [List.foldl_cons]
    have hnd' := List.nodup_cons.1 hnd
    by_cases hmn : m = n
    · subst hmn
      rw [foldl_miss g f v i l _ (fun k hk e => hnd'.1 (huniq k (List.mem_cons_of_mem _ hk) e ▸ hk)),
        step_of_eq g f v x m i hn]
    · have hmem' : n ∈ l := (List.mem_cons.1 hmem).resolve_left (fun e => hmn e.symm)
      rw [foldl_hit g f v i n hn l _ hnd'.2 hmem' (fun k hk => huniq k (List.mem_cons_of_mem _ hk)),
        step_of_ne g f v x m i (fun e => hmn (huniq m List.mem_cons_self e))]

end Fold

/-! ## The scatter as such a fold -/

section Scatter
variable {s si u : Shape} {w : Nat} {α : Type}

theorem scatter_eq_foldl (d : ScatterDims s si u) (f : α → α → α) (x : s.Idx → α) (idx : IVec si w)
    (upd : u.Idx → α) :
    Host.scatter d f x idx upd
      = (List.finRange u.numel).foldl
          (step (fun n => d.resultIdx? (u.rowMajor.symm n) idx) f (fun n => upd (u.rowMajor.symm n))) x := by
  unfold Host.scatter
  congr 1
  funext r n
  unfold step
  beta_reduce
  cases d.resultIdx? (u.rowMajor.symm n) idx <;> rfl

/-- The scatter read at an index that exactly one update index lands at. -/
theorem scatter_apply_of_unique (d : ScatterDims s si u) (f : α → α → α) (x : s.Idx → α) (idx : IVec si w)
    (upd : u.Idx → α) (i : s.Idx) (j : u.Idx) (hj : d.resultIdx? j idx = some i)
    (huniq : ∀ j', d.resultIdx? j' idx = some i → j' = j) :
    Host.scatter d f x idx upd i = f (x i) (upd j) := by
  rw [scatter_eq_foldl]
  have := foldl_hit (fun n => d.resultIdx? (u.rowMajor.symm n) idx) f (fun n => upd (u.rowMajor.symm n)) i
    (u.rowMajor j) (by simp only [Equiv.symm_apply_apply]; exact hj) (List.finRange u.numel) x
    (List.nodup_finRange _) (List.mem_finRange _)
    (fun m _ hm => by
      have := huniq _ hm
      exact (Equiv.symm_apply_eq _).1 this)
  simpa only [Equiv.symm_apply_apply] using this

end Scatter

/-! ## The window of all rows and the first columns, at start 0 -/

section Pad
variable {R C C' : Nat}
variable (wf : ScatterDims.WF ⟨2, ![R, C]⟩ S1 ⟨2, ![R, C']⟩ [0, 1] [] [1] 0)

/-- The dimension numbers: both update axes are window axes, no operand axis is inserted, the one
    component of the start index goes to the column axis. -/
abbrev padDims : ScatterDims ⟨2, ![R, C]⟩ S1 ⟨2, ![R, C']⟩ := ⟨[0, 1], [], [1], 0, wf⟩

theorem pad_start (idx : IVec S1 32) (hidx : ∀ k, idx k = 0#32) (j : Shape.Idx ⟨2, ![R, C']⟩) (a : Fin 2) :
    (padDims wf).start j idx a = 0 := by
  unfold ScatterDims.start
  split
  · rw [hidx]; rfl
  · rfl

theorem pad_window (j : Shape.Idx ⟨2, ![R, C']⟩) (a : Fin 2) :
    (padDims wf).window j a = (j a).val := by
  unfold ScatterDims.window
  have ha : a ∈ (padDims wf).sKept := by
    simp [ScatterDims.sKept, Shape.kept]
  rw [dif_pos ha]
  match a with
  | ⟨0, _⟩ => rfl
  | ⟨1, _⟩ => rfl

theorem pad_resultIdx_some (idx : IVec S1 32) (hidx : ∀ k, idx k = 0#32) (j : Shape.Idx ⟨2, ![R, C']⟩)
    (i : Shape.Idx ⟨2, ![R, C]⟩) (h : ∀ a : Fin 2, (i a).val = (j a).val) :
    (padDims wf).resultIdx? j idx = some i := by
  unfold ScatterDims.resultIdx?
  have hb : ∀ a : Fin 2, 0 ≤ (padDims wf).start j idx a + (padDims wf).window j a ∧
      (padDims wf).start j idx a + (padDims wf).window j a < (Shape.size ⟨2, ![R, C]⟩ a : Nat) := by
    intro a
    rw [pad_start wf idx hidx j a, pad_window wf j a, ← h a]
    have := (i a).isLt
    omega
  rw [dif_pos hb]
  congr 1
  funext a
  apply Fin.ext
  show ((padDims wf).start j idx a + (padDims wf).window j a).toNat = (i a).val
  rw [pad_start wf idx hidx j a, pad_window wf j a, h a]
  omega

theorem pad_resultIdx_val (idx : IVec S1 32) (hidx : ∀ k, idx k = 0#32) (j : Shape.Idx ⟨2, ![R, C']⟩)
    (i : Shape.Idx ⟨2, ![R, C]⟩) (h : (padDims wf).resultIdx? j idx = some i) (a : Fin 2) :
    (i a).val = (j a).val := by
  unfold ScatterDims.resultIdx? at h
  split at h
  · have e := Option.some.inj h
    subst e
    show ((padDims wf).start j idx a + (padDims wf).window j a).toNat = (j a).val
    rw [pad_start wf idx hidx j a, pad_window wf j a]
    omega
  · exact absurd h (by simp)

/-- The scatter of the whole update at start 0, read inside the window, is the update's element
    at the same coordinates. -/
theorem pad_apply {α : Type} (x : Shape.Idx ⟨2, ![R, C]⟩ → α) (idx : IVec S1 32) (hidx : ∀ k, idx k = 0#32)
    (upd : Shape.Idx ⟨2, ![R, C']⟩ → α) (i : Shape.Idx ⟨2, ![R, C]⟩) (j : Shape.Idx ⟨2, ![R, C']⟩)
    (h : ∀ a : Fin 2, (i a).val = (j a).val) :
    Host.scatter (padDims wf) (fun _ b => b) x idx upd i = upd j := by
  refine scatter_apply_of_unique (padDims wf) (fun _ b => b) x idx upd i j
    (pad_resultIdx_some wf idx hidx j i h) ?_
  intro j' hj'
  funext a
  apply Fin.ext
  rw [← pad_resultIdx_val wf idx hidx j' i hj' a, h a]

end Pad

/-! ## The two scatters of the program -/

section Program
variable [Cert.KernelIdeal.Facts₀]

theorem w2pad_apply {α : Type} (x : S512x256.Idx → α) (idx : IVec S1 32) (hidx : ∀ i, idx i = 0#32)
    (u : S512x128.Idx → α) (i : S512x256.Idx) (j : S512x128.Idx)
    (h0 : (i 0).val = (j 0).val) (h1 : (i 1).val = (j 1).val) :
    Host.scatter scatter_S512x256_S1_S512x128_01_n_1_0 (fun _ b => b) x idx u i = u j :=
  pad_apply (R := 512) (C := 256) (C' := 128) Facts₀.scatter_S512x256_S1_S512x128_01_n_1_0_wf
    x idx hidx u i j (Fin.forall_fin_two.2 ⟨h0, h1⟩)

theorem b2pad_apply {α : Type} (x : S1x256.Idx → α) (idx : IVec S1 32) (hidx : ∀ i, idx i = 0#32)
    (u : S1x128.Idx → α) (i : S1x256.Idx) (j : S1x128.Idx) (h1 : (i 1).val = (j 1).val) :
    Host.scatter scatter_S1x256_S1_S1x128_01_n_1_0 (fun _ b => b) x idx u i = u j :=
  pad_apply (R := 1) (C := 256) (C' := 128) Facts₀.scatter_S1x256_S1_S1x128_01_n_1_0_wf
    x idx hidx u i j (Fin.forall_fin_two.2 ⟨by
      have hi := (i 0).isLt
      have hj := (j 0).isLt
      show (i 0).val = (j 0).val
      have hi' : (i 0).val < 1 := hi
      have hj' : (j 0).val < 1 := hj
      omega, h1⟩)

end Program

end Cert.KernelIdeal.PadScatter
-- ==== Proof.KernelHost.lean ====
/-
  The arrays the kernel's region finds, in terms of the arguments.

  The 256 × 64 × 512 bags array is viewed as 16384 rows of 512; the two biases as one-row matrices. The classifier
  matrix and its bias are padded with zero columns from 128 to 256 columns by writing them at column offset zero
  into zero arrays: at a column below 128 the padded arrays hold the arguments' entries.
-/
import proofs.«176992_g2000502745572654_pallasbulk_917_18_alg».proof.Proof.Gen.KernelIdeal.Frame
import proofs.«176992_g2000502745572654_pallasbulk_917_18_alg».proof.Proof.KernelPay
import proofs.«176992_g2000502745572654_pallasbulk_917_18_alg».proof.Proof.PadScatter
import Idealize.ShloMosaic.Lib.StableHlo.Run
import Idealize.ShloMosaic.Lib.ValueIdx

noncomputable section

namespace Cert.KernelIdeal.Val

open Idealize.ShloMosaic Idealize.ShloMosaic.TcCoe Idealize.SL.Sem Idealize.ShloMosaic.ValueIdx
open Cert.KernelIdeal Cert.KernelIdeal.Gen Cert.MilSpec Cert.KernelIdeal.Pay

variable (m : (ℓ : Loc nD τ sig) → Buf (Elt Ideal) ℓ)

/-- The bags as 16384 rows of 512 features. -/
abbrev rowsA (c : Dev nD) : S16384x512.Idx → EReal :=
  shapeCast S16384x512 (m ((c : Thread nD τ).loc main_arg0)) Facts₀.shapeCasts_S256x64x512_S16384x512
/-- The hidden layer's bias as a one-row matrix. -/
abbrev b1A (c : Dev nD) : S1x512.Idx → EReal :=
  shapeCast S1x512 (m ((c : Thread nD τ).loc main_arg2)) Facts₀.shapeCasts_S512_S1x512
/-- The classifier's bias as a one-row matrix. -/
abbrev b2A (c : Dev nD) : S1x128.Idx → EReal :=
  shapeCast S1x128 (m ((c : Thread nD τ).loc main_arg4)) Facts₀.shapeCasts_S128_S1x128

theorem V_v0 (c : Dev nD) : (V (F := Ideal) m c main_v0 : S16384x512.Idx → EReal) = rowsA m c := by
  show StableHlo.after hostOps0 (fun b => m (c, b)) (Proc.devRef .tc main_v0) = _
  after_results
  rfl

theorem V_v1 (c : Dev nD) : (V (F := Ideal) m c main_v1 : S1x512.Idx → EReal) = b1A m c := by
  show StableHlo.after hostOps0 (fun b => m (c, b)) (Proc.devRef .tc main_v1) = _
  after_results
  rfl

/-- Below column 128 the padded classifier matrix holds the classifier matrix. -/
theorem V_v4_apply (c : Dev nD) (j : Fin 512) (q : Fin 128) :
    (V (F := Ideal) m c main_v4 : S512x256.Idx → EReal) (ix2 j (padCol q))
      = (m ((c : Thread nD τ).loc main_arg3) : S512x128.Idx → EReal) (ix2 j q) := by
  have e : (V (F := Ideal) m c main_v4 : S512x256.Idx → EReal)
      = Host.scatter scatter_S512x256_S1_S512x128_01_n_1_0 (fun _ b => b)
          (broadcastInDim S512x256 ![] Facts₀.bcast_S_S512x256 (constant (F := Ideal) S_ .f32 0x00000000#32))
          (broadcastInDim S1 ![] Facts₀.bcast_S_S1 (constantI S_ 32 0#32)) (m ((c : Thread nD τ).loc main_arg3)) := by
    show StableHlo.after hostOps0 (fun b => m (c, b)) (Proc.devRef .tc main_v4) = _
    after_results
  rw [e]
  exact Cert.KernelIdeal.PadScatter.w2pad_apply _ _ (fun _ => rfl) _ _ _ rfl rfl

/-- Below column 128 the padded bias holds the bias. -/
theorem V_v8_apply (c : Dev nD) (q : Fin 128) :
    (V (F := Ideal) m c main_v8 : S1x256.Idx → EReal) (ix2 (0 : Fin 1) (padCol q)) = b2A m c (ix2 (0 : Fin 1) q) := by
  have e : (V (F := Ideal) m c main_v8 : S1x256.Idx → EReal)
      = Host.scatter scatter_S1x256_S1_S1x128_01_n_1_0 (fun _ b => b)
          (broadcastInDim S1x256 ![] Facts₀.bcast_S_S1x256 (constant (F := Ideal) S_ .f32 0x00000000#32))
          (broadcastInDim S1 ![] Facts₀.bcast_S_S1 (constantI S_ 32 0#32)) (b2A m c) := by
    show StableHlo.after hostOps0 (fun b => m (c, b)) (Proc.devRef .tc main_v8) = _
    after_results
    rfl
  rw [e]
  exact Cert.KernelIdeal.PadScatter.b2pad_apply _ _ (fun _ => rfl) _ _ _ rfl

end Cert.KernelIdeal.Val

end
-- ==== Proof.KernelValue.lean ====
/-
  The kernel's two result arrays after the run, as functions of the arguments.

  Grid point t handles rows 4096 t … 4096 t + 4095, that is bags 64 t … 64 t + 63. Its first store is block t (4096
  rows) of the instance array, its second block t (64 rows) of the bag array; the four points' blocks tile both arrays.
  The three-axis instance result is the 16384 × 128 instance array viewed as 256 × 64 × 128.
-/
import proofs.«176992_g2000502745572654_pallasbulk_917_18_alg».proof.Proof.KernelHost
import Idealize.ShloMosaic.Lib.Pipeline.Value
import Idealize.ShloMosaic.Lib.Tactic

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.MilSpec Cert.KernelIdeal.Pay

variable (m : (ℓ : Loc nD τ sig) → Buf (Elt Ideal) ℓ) (ρ : Dev nD → PrngReg)

theorem hz : (![0, 0] : Fin 2 → Nat) = fun _ => 0 := funext fun a => by fin_cases a <;> rfl

/-- The hidden layer's weights. -/
abbrev w1A (c : Dev nD) : S512x512.Idx → EReal := m ((c : Thread nD τ).loc main_arg1)
/-- The classifier's weight from hidden unit j to class q, and its bias at class q. -/
abbrev w2F (c : Dev nD) : Fin 512 → Fin 128 → EReal := fun j q => (m ((c : Thread nD τ).loc main_arg3) : S512x128.Idx → EReal) (ix2 j q)
abbrev b2F (c : Dev nD) : Fin 128 → EReal := fun q => b2A m c (ix2 (0 : Fin 1) q)

/-- The instance scores and the bag means of the arguments. -/
def instA (c : Dev nD) : S16384x128.Idx → EReal := inst (rowsA m c) (w1A m c) (b1A m c) (w2F m c) (b2F m c)
def bagA (c : Dev nD) : S256x128.Idx → EReal := bag (rowsA m c) (w1A m c) (b1A m c) (w2F m c) (b2F m c)

/-- The block index maps over the grid: the row-blocked windows are at block t, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block t of the rows: row p of the block is row 4096 t + p. -/
theorem iblk0_apply (c : Dev nD) (t : Fin cfg0.N) (y : S4096x512.Idx) (k : S16384x512.Idx)
    (hk0 : (k 0).val = 4096 * t.val + (y 0).val) (hk1 : (k 1).val = (y 1).val) :
    (iblk m c 0 t : Vec Ideal S4096x512 .f32) y = (V (F := Ideal) m c main_v0 : S16384x512.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 4096 + 1 * (y 0).val = (k 0).val; rw [e0, hk0]; omega
  | ⟨1, _⟩ => show win0_0.index t (1 : Fin 2) * 512 + 1 * (y 1).val = (k 1).val; rw [e1, hk1]; omega

/-- The windows that are the whole of their arrays at every point. -/
theorem iblk1_eq (c : Dev nD) (t : Fin cfg0.N) :
    (iblk m c 1 t : Vec Ideal S512x512 .f32) = (V (F := Ideal) m c main_arg1 : S512x512.Idx → EReal) := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

theorem iblk2_eq (c : Dev nD) (t : Fin cfg0.N) :
    (iblk m c 2 t : Vec Ideal S1x512 .f32) = (V (F := Ideal) m c main_v1 : S1x512.Idx → EReal) := by
  obtain ⟨-, -, -, -, e0, e1, -⟩ := idx_facts t
  funext y
  unfold iblk
  rw [View.read_apply]
  show V m c main_v1 _ = V m c main_v1 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

theorem iblk3_eq (c : Dev nD) (t : Fin cfg0.N) :
    (iblk m c 3 t : Vec Ideal S512x256 .f32) = (V (F := Ideal) m c main_v4 : S512x256.Idx → EReal) := by
  obtain ⟨-, -, -, -, -, -, e0, e1, -⟩ := idx_facts t
  funext y
  unfold iblk
  rw [View.read_apply]
  show V m c main_v4 _ = V m c main_v4 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

theorem iblk4_eq (c : Dev nD) (t : Fin cfg0.N) :
    (iblk m c 4 t : Vec Ideal S1x256 .f32) = (V (F := Ideal) m c main_v8 : S1x256.Idx → EReal) := by
  obtain ⟨-, -, -, -, -, -, -, -, e0, e1, -⟩ := idx_facts t
  funext y
  unfold iblk
  rw [View.read_apply]
  show V m c main_v8 _ = V m c main_v8 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- What point t stores first, at (p, q): the instance array at row 4096 t + p, class q. -/
theorem store1_eq (c : Dev nD) (t : Fin cfg0.N) (y : S4096x128.Idx) (i : S16384x128.Idx)
    (h0 : (i 0).val = 4096 * t.val + (y 0).val) (h1 : (i 1).val = (y 1).val) :
    k0_pay1 (F := Ideal) (iblk m c 0 t) (iblk m c 1 t) (iblk m c 2 t) (iblk m c 3 t) (iblk m c 4 t) y = instA m c i := by
  obtain ⟨p, q, rfl⟩ : ∃ (p : Fin 4096) (q : Fin 128), y = ix2 p q := ⟨y 0, y 1, eq_ix2 y⟩
  refine (pay1_apply (iblk m c 0 t) (iblk m c 1 t) (iblk m c 2 t) (iblk m c 3 t) (iblk m c 4 t) p q).trans ?_
  have hq : q = i 1 := Fin.ext h1.symm
  have e0 : (fun k : Fin 512 => (iblk m c 0 t : Vec Ideal S4096x512 .f32) (ix2 p k)) = fun k => rowsA m c (ix2 (i 0) k) :=
    funext fun k => (iblk0_apply m c t (ix2 p k) (ix2 (i 0) k) h0 rfl).trans (congrFun (V_v0 m c) _)
  have e1 : (iblk m c 1 t : Vec Ideal S512x512 .f32) = w1A m c := (iblk1_eq m c t).trans (V_main_arg1 m c)
  have e2 : (iblk m c 2 t : Vec Ideal S1x512 .f32) = b1A m c := (iblk2_eq m c t).trans (V_v1 m c)
  have e3 : (fun (j : Fin 512) (c' : Fin 128) => (iblk m c 3 t : Vec Ideal S512x256 .f32) (ix2 j (padCol c'))) = w2F m c :=
    funext fun j => funext fun c' => (congrFun (iblk3_eq m c t) _).trans (V_v4_apply m c j c')
  have e4 : (fun c' : Fin 128 => (iblk m c 4 t : Vec Ideal S1x256 .f32) (ix2 (0 : Fin 1) (padCol c'))) = b2F m c :=
    funext fun c' => (congrFun (iblk4_eq m c t) _).trans (V_v8_apply m c c')
  rw [e0, e1, e2, e3, e4, hq]
  rfl

/-- What point t stores second, at (b, q): the bag array at bag 64 t + b, class q. -/
theorem store2_eq (c : Dev nD) (t : Fin cfg0.N) (y : S64x128.Idx) (i : S256x128.Idx)
    (h0 : (i 0).val = 64 * t.val + (y 0).val) (h1 : (i 1).val = (y 1).val) :
    k0_pay2 (F := Ideal) (iblk m c 0 t) (iblk m c 1 t) (iblk m c 2 t) (iblk m c 3 t) (iblk m c 4 t) y = bagA m c i := by
  obtain ⟨b, q, rfl⟩ : ∃ (b : Fin 64) (q : Fin 128), y = ix2 b q := ⟨y 0, y 1, eq_ix2 y⟩
  refine (pay2_apply (iblk m c 0 t) (iblk m c 1 t) (iblk m c 2 t) (iblk m c 3 t) (iblk m c 4 t) b q).trans ?_
  show _ = (∑ j : Fin 64, instA m c (ix2 (bagRow (i 0) j) (i 1))) * invE
  refine congrArg (· * invE) (Finset.sum_congr rfl fun j _ => ?_)
  refine store1_eq m c t (ix2 (blkRow b j) q) (ix2 (bagRow (i 0) j) (i 1)) ?_ h1
  show 64 * (i 0).val + j.val = 4096 * t.val + (64 * b.val + j.val)
  have h0' : (i 0).val = 64 * t.val + b.val := h0
  omega

/-- What point t writes back through the instance window is block t of the instance array. -/
theorem flushed5_eq (c : Dev nD) (t : Fin cfg0.N) :
    (dats m 0 c).flushed 5 t = ((cfg0.win 5).blk t).view.read (Elt Ideal) (instA m c) := by
  show (cfg0.win 5).cut (grid0.coords t) ((dats m 0 c).after 5 t) = _
  rw [after0_5]
  unfold out0_5
  rw [View.canon_unit_zero hz]
  simp only [View.ld_unit_zero (S := S4096x512) hz, View.ld_unit_zero (S := S512x512) hz, View.ld_unit_zero (S := S1x512) hz,
    View.ld_unit_zero (S := S512x256) hz, View.ld_unit_zero (S := S1x256) hz]
  obtain ⟨-, -, -, -, -, -, -, -, -, -, e0, e1, -⟩ := idx_facts t
  funext y
  show k0_pay1 (F := Ideal) (iblk m c 0 t) (iblk m c 1 t) (iblk m c 2 t) (iblk m c 3 t) (iblk m c 4 t) y
    = instA m c (((cfg0.win 5).blk t).view.emb y)
  refine store1_eq m c t y _ ?_ ?_
  · show win0_5.index t (0 : Fin 2) * 4096 + 1 * (y 0).val = 4096 * t.val + (y 0).val; rw [e0]; omega
  · show win0_5.index t (1 : Fin 2) * 128 + 1 * (y 1).val = (y 1).val; rw [e1]; omega

/-- What point t writes back through the bag window is block t of the bag array. -/
theorem flushed6_eq (c : Dev nD) (t : Fin cfg0.N) :
    (dats m 0 c).flushed 6 t = ((cfg0.win 6).blk t).view.read (Elt Ideal) (bagA m c) := by
  show (cfg0.win 6).cut (grid0.coords t) ((dats m 0 c).after 6 t) = _
  rw [after0_6]
  unfold out0_6
  rw [View.canon_unit_zero hz]
  simp only [View.ld_unit_zero (S := S4096x512) hz, View.ld_unit_zero (S := S512x512) hz, View.ld_unit_zero (S := S1x512) hz,
    View.ld_unit_zero (S := S512x256) hz, View.ld_unit_zero (S := S1x256) hz]
  obtain ⟨-, -, -, -, -, -, -, -, -, -, -, -, e0, e1⟩ := idx_facts t
  funext y
  show k0_pay2 (F := Ideal) (iblk m c 0 t) (iblk m c 1 t) (iblk m c 2 t) (iblk m c 3 t) (iblk m c 4 t) y
    = bagA m c (((cfg0.win 6).blk t).view.emb y)
  refine store2_eq m c t y _ ?_ ?_
  · show win0_6.index t (0 : Fin 2) * 64 + 1 * (y 0).val = 64 * t.val + (y 0).val; rw [e0]; omega
  · show win0_6.index t (1 : Fin 2) * 128 + 1 * (y 1).val = (y 1).val; rw [e1]; omega

/-- An index is in point t's block of the instance array iff each coordinate is in the block's range. -/
theorem mem_blk5 (t : Fin cfg0.N) (i : S16384x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v9_0).slice (win0_5.rect t)).set ↔ _
  rw [View.set_slice_whole, Rect.mem_set_unit]
  exact Iff.rfl

theorem mem_blk6 (t : Fin cfg0.N) (i : S256x128.Idx) :
    i ∈ ((cfg0.win 6).blk t).view.set ↔ ∀ a : Fin 2, win0_6.index t a * S64x128.size a ≤ (i a).val ∧ (i a).val < win0_6.index t a * S64x128.size a + S64x128.size a := by
  show i ∈ ((View.whole main_v9_1).slice (win0_6.rect t)).set ↔ _
  rw [View.set_slice_whole, Rect.mem_set_unit]
  exact Iff.rfl

/-- Row r of the instance array is in the block of point r / 4096. -/
theorem cover5 (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  have hN : cfg0.N = 4 := N_0
  refine ⟨⟨(i 0).val / 4096, by rw [hN]; omega⟩, flush0_5 _, ?_⟩
  obtain ⟨-, -, -, -, -, -, -, -, -, -, e0, e1, -⟩ := idx_facts ⟨(i 0).val / 4096, by rw [hN]; omega⟩
  rw [mem_blk5]
  intro a
  match a with
  | ⟨0, _⟩ =>
    show win0_5.index _ (0 : Fin 2) * 4096 ≤ (i 0).val ∧ (i 0).val < win0_5.index _ (0 : Fin 2) * 4096 + 4096
    rw [e0]; show (i 0).val / 4096 * 4096 ≤ (i 0).val ∧ (i 0).val < (i 0).val / 4096 * 4096 + 4096; omega
  | ⟨1, _⟩ =>
    show win0_5.index _ (1 : Fin 2) * 128 ≤ (i 1).val ∧ (i 1).val < win0_5.index _ (1 : Fin 2) * 128 + 128
    rw [e1]; omega

/-- Bag b of the bag array is in the block of point b / 64. -/
theorem cover6 (i : S256x128.Idx) : ∃ t : Fin cfg0.N, (cfg0.win 6).flush t = true ∧ i ∈ ((cfg0.win 6).blk t).view.set := by
  have hi0 : (i 0).val < 256 := (i 0).isLt
  have hi1 : (i 1).val < 128 := (i 1).isLt
  have hN : cfg0.N = 4 := N_0
  refine ⟨⟨(i 0).val / 64, by rw [hN]; omega⟩, flush0_6 _, ?_⟩
  obtain ⟨-, -, -, -, -, -, -, -, -, -, -, -, e0, e1⟩ := idx_facts ⟨(i 0).val / 64, by rw [hN]; omega⟩
  rw [mem_blk6]
  intro a
  match a with
  | ⟨0, _⟩ =>
    show win0_6.index _ (0 : Fin 2) * 64 ≤ (i 0).val ∧ (i 0).val < win0_6.index _ (0 : Fin 2) * 64 + 64
    rw [e0]; show (i 0).val / 64 * 64 ≤ (i 0).val ∧ (i 0).val < (i 0).val / 64 * 64 + 64; omega
  | ⟨1, _⟩ =>
    show win0_6.index _ (1 : Fin 2) * 128 ≤ (i 1).val ∧ (i 1).val < win0_6.index _ (1 : Fin 2) * 128 + 128
    rw [e1]; omega

/-- The instance window's array after the run. -/
theorem final5 (c : Dev nD) : (dats m 0 c).arrAt 5 cfg0.N = instA m c :=
  (dats m 0 c).arrAt_eq_of_cover 5 (instA m c) (fun t _ => flushed5_eq m c t) cover5

/-- The bag window's array after the run. -/
theorem final6 (c : Dev nD) : (dats m 0 c).arrAt 6 cfg0.N = bagA m c :=
  (dats m 0 c).arrAt_eq_of_cover 6 (bagA m c) (fun t _ => flushed6_eq m c t) cover6

/-- The instance array viewed as 256 bags of 64 rows. -/
abbrev inst3 (c : Dev nD) : S256x64x128.Idx → EReal :=
  shapeCast S256x64x128 (instA m c) Facts₀.shapeCasts_S16384x128_S256x64x128

/-- The host's last line views the instance window's array, as the run leaves it, as 256 × 64 × 128. -/
theorem tail_v10 (c : Dev nD) :
    Pipeline.afterTail₀ cfgs (dats m) 0 (V0 m) [hostOps1] c main_v10 = inst3 m c := by
  unfold Pipeline.afterTail₀
  show StableHlo.after hostOps1 _ (Proc.devRef .tc main_v10) = _
  after_results
  have e : Pipeline.withArrays (cfgs 0).spec c (V0 m c) (fun w => (dats m 0 c).arrAt w (cfgs 0).N)
      (Proc.devRef .tc main_v9_0) = instA m c :=
    (Pipeline.withArrays_arr spec0 launch0.win.arr_inj c _ _ 5).trans (final5 m c)
  rw [e]
  rfl

/-- The run, read: the bag result at the bag means, the three-axis instance result at the instance scores, the
    arguments unchanged. -/
theorem run : θ_run defs (onTc (τ := τ) (main (F := Ideal))) ⟨m, fun _ => 0, ρ⟩ fun r => ∀ c : Dev nD,
      r.2.mem ((c : Thread nD τ).loc main_v9_1) = bagA m c
      ∧ r.2.mem ((c : Thread nD τ).loc main_v10) = inst3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (final6 m c),
      ((h c).2 main_v10 (Pipeline.mem_restRefs_of main_v10 (by decide) (by decide))).trans (tail_v10 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Val

end
-- ==== Proof.LibBlockMean.lean ====
import Mathlib.Data.EReal.Operations
import Mathlib.Algebra.BigOperators.Group.Finset.Basic
import Mathlib.Algebra.BigOperators.Fin

/-!
# Block averaging on the extended reals

Multiplying a vector of extended reals by a block-diagonal matrix whose
diagonal blocks are constant (every entry of a diagonal block equals a fixed
nonnegative finite scalar `c`, every entry outside the diagonal blocks is `0`)
is the same as summing the entries of each block and scaling the block sum by
`c`.  No finiteness assumption is made on the entries of the vector: the
entries may be `⊤` or `⊥`, and the identity still holds because multiplication
by a nonnegative finite scalar distributes over addition on the extended reals.
-/

noncomputable section

open Finset

namespace LibBlockMean

/-- A finite sum times a nonnegative finite scalar distributes, on the extended reals:
`(∑ j ∈ s, g j) * c = ∑ j ∈ s, g j * c` whenever `0 ≤ c` and `c ≠ ⊤`.  The summands
`g j` are arbitrary extended reals (possibly `⊤` or `⊥`). -/
theorem sum_mul_of_nonneg_ne_top {ι : Type*} (s : Finset ι) (g : ι → EReal) (c : EReal)
    (hc : 0 ≤ c) (hc' : c ≠ ⊤) :
    (∑ j ∈ s, g j) * c = ∑ j ∈ s, g j * c := by
  classical
  induction s using Finset.induction_on with
  | empty => simp
  | insert a s ha ih =>
    rw [Finset.sum_insert ha, Finset.sum_insert ha,
      EReal.right_distrib_of_nonneg_of_ne_top hc hc', ih]

/-- The `j`-th position of the `b`-th block of length `N` lies below `K = n * N`:
`N * b + j < K` for `b < n` and `j < N`. -/
theorem block_index_lt {n N K : ℕ} (hK : K = n * N) (b : Fin n) (j : Fin N) :
    N * b.val + j.val < K := by
  have h1 : N * b.val + j.val < N * (b.val + 1) := by
    rw [Nat.mul_succ]
    exact Nat.add_lt_add_left j.isLt _
  have h2 : N * (b.val + 1) ≤ N * n := Nat.mul_le_mul_left N b.isLt
  rw [hK, Nat.mul_comm n N]
  exact lt_of_lt_of_le h1 h2

/-- Row `b` of the block-diagonal averaging matrix applied to a vector of extended reals.
The matrix has entry `c` at `(b, k)` when `k` lies in the `b`-th block of length `N`
(that is, `b = k / N`) and `0` elsewhere.  Its product with `f` at row `b` equals the sum
of `f` over the `b`-th block, `f (N * b + 0) + ⋯ + f (N * b + (N - 1))`, scaled by `c`.
The scalar `c` is nonnegative and finite; the entries of `f` are arbitrary extended reals.
The case `N = 0` (hence `K = 0`) is included: both sides are then `0`. -/
theorem blockMean_sum {n N K : ℕ} (hK : K = n * N) (c : EReal) (hc : 0 ≤ c) (hc' : c ≠ ⊤)
    (f : Fin K → EReal) (b : Fin n) :
    ∑ k : Fin K, (if b.val = k.val / N then c else 0) * f k
      = (∑ j : Fin N, f ⟨N * b.val + j.val, block_index_lt hK b j⟩) * c := by
  classical
  rw [sum_mul_of_nonneg_ne_top _ _ c hc hc']
  -- each term of the left side is `f k * c` on the block and `0` off the block
  have h1 : ∀ k : Fin K, (if b.val = k.val / N then c else 0) * f k
      = if b.val = k.val / N then f k * c else 0 := by
    intro k
    split_ifs
    · exact EReal.mul_comm c (f k)
    · exact zero_mul (f k)
  rw [Finset.sum_congr rfl (fun k _ => h1 k), ← Finset.sum_filter]
  symm
  -- the block `{k | b = k / N}` is the image of `j ↦ N * b + j`
  refine Finset.sum_bij (fun j _ => (⟨N * b.val + j.val, block_index_lt hK b j⟩ : Fin K))
    ?_ ?_ ?_ ?_
  · intro j _
    simp only [Finset.mem_filter, Finset.mem_univ, true_and]
    have hN : 0 < N := j.pos
    rw [Nat.mul_comm, Nat.add_comm, Nat.add_mul_div_right _ _ hN, Nat.div_eq_of_lt j.isLt,
      Nat.zero_add]
  · intro j₁ _ j₂ _ h
    have h' : N * b.val + j₁.val = N * b.val + j₂.val := congrArg Fin.val h
    exact Fin.ext (Nat.add_left_cancel h')
  · intro k hk
    simp only [Finset.mem_filter, Finset.mem_univ, true_and] at hk
    have hN : 0 < N := by
      rcases Nat.eq_zero_or_pos N with h0 | hN
      · subst h0
        rw [Nat.mul_zero] at hK
        subst hK
        exact k.elim0
      · exact hN
    refine ⟨⟨k.val % N, Nat.mod_lt _ hN⟩, Finset.mem_univ _, ?_⟩
    apply Fin.ext
    show N * b.val + k.val % N = k.val
    rw [hk]
    exact Nat.div_add_mod _ _
  · intro j _
    rfl

end LibBlockMean
-- ==== Proof.Consts.lean ====
/-
  The value of the f32 pattern 0x3C800000: the real number 1/64, a nonnegative finite scalar.
-/
import Idealize.ShloMosaic.PureOps.Ideal
import Idealize.ShloMosaic.PureOps.Ideal.Laws
import proofs.«176992_g2000502745572654_pallasbulk_917_18_alg».proof.Proof.Spec

noncomputable section

namespace Cert.MilSpec

open Idealize.ShloMosaic

/-- The pattern 0x3C800000 denotes 1/64. -/
theorem invE_eq : invE = ((1 / 64 : ℝ) : EReal) := by
  simp [invE, Ideal.ofBits, Ideal.ieee, -EReal.coe_mul]
  norm_num

theorem invE_nonneg : 0 ≤ invE := by
  rw [invE_eq]; exact EReal.coe_nonneg.mpr (by norm_num)

theorem invE_ne_top : invE ≠ ⊤ := by
  rw [invE_eq]; exact EReal.coe_ne_top _

/-- The pattern of zero denotes zero. -/
theorem zeroE_eq : zeroE = 0 := Ideal.ofBits_zero_f32

end Cert.MilSpec

end
-- ==== Proof.RefPay.lean ====
/-
  The reference kernel's two stored values read at an entry.

  The first store holds, at (p, q) of a block of 512 rows, the score of class q of row p. The second store is the
  product of the 8 × 512 pooling matrix with that block: entry (b, q) is the sum over the block's rows k of the
  pooling entry (b, k) times the score at (k, q). Where the pooling matrix is block diagonal with 1/64 on the 64
  rows of bag b and zero elsewhere, that is the sum of the bag's 64 scores times 1/64.
-/
import proofs.«176992_g2000502745572654_pallasbulk_917_18_alg».proof.Proof.Gen.ReferenceIdeal.Skeleton
import proofs.«176992_g2000502745572654_pallasbulk_917_18_alg».proof.Proof.LibDense
import proofs.«176992_g2000502745572654_pallasbulk_917_18_alg».proof.Proof.LibBlockMean
import proofs.«176992_g2000502745572654_pallasbulk_917_18_alg».proof.Proof.Spec
import proofs.«176992_g2000502745572654_pallasbulk_917_18_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Pay

open Idealize.ShloMosaic Idealize.ShloMosaic.ValueIdx Cert.ReferenceIdeal Cert.ReferenceIdeal.Gen Cert.MilSpec

variable [Cert.ReferenceIdeal.Facts]

/-- Entry (p, q) of the first stored value is the score of class q of row p of the block. -/
theorem pay1_apply (v0 : Vec Ideal S512x512 .f32) (v2 : Vec Ideal S512x512 .f32) (v4 : Vec Ideal S1x512 .f32)
    (v10 : Vec Ideal S512x128 .f32) (v12 : Vec Ideal S1x128 .f32) (p : Fin 512) (q : Fin 128) :
    k0_pay1 (F := Ideal) v0 v2 v4 v10 v12 (ix2 p q)
      = score (fun k => v0 (ix2 p k)) v2 v4 (fun j c => v10 (ix2 j c)) (fun c => v12 (ix2 (0 : Fin 1) c)) q := by
  unfold k0_pay1
  simp only [shapeCast_self]
  rw [addf_apply, broadcastTo_1b_ab_apply]
  simp only [matmul]
  rw [Cert.LibDense.matmul_zero_apply _ none rfl rfl rfl rfl rfl rfl]
  unfold score
  congr 1
  refine Finset.sum_congr rfl fun j _ => ?_
  congr 1
  unfold hid
  rw [maximumf_apply, addf_apply, broadcastTo_1b_ab_apply, broadcast_apply,
    Cert.LibDense.matmul_zero_apply _ none rfl rfl rfl rfl rfl rfl]
  rfl

/-- Row `64 b + j` of the block's 512 rows. -/
abbrev blkRow (b : Fin 8) (j : Fin 64) : Fin 512 := ⟨64 * b.val + j.val, by have := b.isLt; have := j.isLt; omega⟩

/-- Entry (b, q) of the second stored value, for a block-diagonal pooling matrix: the sum of the first stored value
    over the 64 rows of bag b, times 1/64. -/
theorem pay2_apply (v0 : Vec Ideal S512x512 .f32) (v2 : Vec Ideal S512x512 .f32) (v4 : Vec Ideal S1x512 .f32)
    (v10 : Vec Ideal S512x128 .f32) (v12 : Vec Ideal S1x128 .f32) (v17 : Vec Ideal S8x512 .f32)
    (hpool : ∀ (b : Fin 8) (k : Fin 512), v17 (ix2 b k) = if b.val = k.val / 64 then invE else zeroE)
    (b : Fin 8) (q : Fin 128) :
    k0_pay2 (F := Ideal) v0 v2 v4 v10 v12 v17 (ix2 b q)
      = (∑ j : Fin 64, k0_pay1 (F := Ideal) v0 v2 v4 v10 v12 (ix2 (blkRow b j) q)) * invE := by
  unfold k0_pay2
  simp only [shapeCast_self, matmul]
  rw [Cert.LibDense.matmul_zero_apply _ none rfl rfl rfl rfl rfl rfl]
  have h := LibBlockMean.blockMean_sum (n := 8) (N := 64) (K := 512) rfl invE invE_nonneg invE_ne_top
    (fun k => k0_pay1 (F := Ideal) v0 v2 v4 v10 v12 (ix2 k q)) b
  refine Eq.trans (Finset.sum_congr rfl fun k _ => ?_) h
  rw [hpool b k, zeroE_eq]

end Cert.ReferenceIdeal.Pay

end
-- ==== Proof.RefHost.lean ====
import proofs.«176992_g2000502745572654_pallasbulk_917_18_alg».proof.Proof.Gen.ReferenceIdeal.Frame
import Idealize.ShloMosaic.Lib.StableHlo.Run
import Idealize.ShloMosaic.PureOps.Ideal

/-!
# The reshaped arguments of the reference

Before its kernel region the reference views its 256×64×512 argument (the bags) as 16384 rows of 512, and its two
bias vectors, of 512 and of 128 entries, as one-row matrices. This module reads the three arrays where the region
finds them: each is its argument with the same entries in row-major order under the new shape.
-/

noncomputable section

open Idealize.ShloMosaic Idealize.ShloMosaic.TcCoe

namespace Cert.ReferenceIdeal.Val

open Cert.ReferenceIdeal

variable (m : (ℓ : Loc nD τ sig) → Buf (Elt Ideal) ℓ)

/-- The bags viewed as 16384 rows of 512: the 256×64×512 argument's entries in row-major order. -/
abbrev rowsA (c : Dev nD) : S16384x512.Idx → EReal := shapeCast S16384x512 (m ((c : Thread nD τ).loc main_arg0)) Facts₀.shapeCasts_S256x64x512_S16384x512
/-- The bias of 512 entries as a one-row matrix. -/
abbrev b1A (c : Dev nD) : S1x512.Idx → EReal := shapeCast S1x512 (m ((c : Thread nD τ).loc main_arg2)) Facts₀.shapeCasts_S512_S1x512
/-- The bias of 128 entries as a one-row matrix. -/
abbrev b2A (c : Dev nD) : S1x128.Idx → EReal := shapeCast S1x128 (m ((c : Thread nD τ).loc main_arg4)) Facts₀.shapeCasts_S128_S1x128

set_option maxHeartbeats 4000000 in
/-- The region finds the 16384×512 view of the bags. -/
theorem V_v0 (c : Dev nD) : (Gen.V (F := Ideal) m c main_v0 : S16384x512.Idx → EReal) = rowsA m c := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- The region finds the bias of 512 entries as a one-row matrix. -/
theorem V_v1 (c : Dev nD) : (Gen.V (F := Ideal) m c main_v1 : S1x512.Idx → EReal) = b1A m c := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- The region finds the bias of 128 entries as a one-row matrix. -/
theorem V_v2 (c : Dev nD) : (Gen.V (F := Ideal) m c main_v2 : S1x128.Idx → EReal) = b2A m c := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

end Cert.ReferenceIdeal.Val
-- ==== Proof.PoolMatrix.lean ====
import proofs.«176992_g2000502745572654_pallasbulk_917_18_alg».proof.Proof.Gen.ReferenceIdeal.Frame
import Idealize.ShloMosaic.Lib.StableHlo.Run
import Idealize.ShloMosaic.Lib.StableHlo.Predicate
import Idealize.ShloMosaic.PureOps.Ideal

/-!
# The pooling matrix of the reference

Before its kernel region the reference builds the 8×512 array  P = where(row = col ÷ 64, 1/64, 0):  the row and the
column coordinates as 32-bit words, the column floor-divided by the constant 64 (quotient toward zero, sign test,
remainder test, select), the compare, and the select between the two constants. This module reads that array where
the region finds it: first as a pure term of no argument (`V_main_v11`, at any float instance), then entry by entry
(`pool_at`), and at the ideal instance as  P r k = 1/64 if r = k / 64, else 0  (`pool_apply`), the two constants as
the patterns 0x3C800000 and 0x00000000 denote them.
-/

noncomputable section

open Idealize.ShloMosaic

namespace Cert.ReferenceIdeal.PoolMatrix

open Cert.ReferenceIdeal

/-! ## The words -/

/-- The sign of a word: 0, -1 or 1. -/
def sgn (x : BitVec 32) : BitVec 32 := if x = 0 then 0 else if x.msb then -1 else 1

/-- The floor quotient of a word by 64 as the program computes it: the quotient rounded toward zero, less one where
    the signs of dividend and divisor differ and the remainder is not zero. -/
def floorDiv64 (x : BitVec 32) : BitVec 32 :=
  Scalar.select
    (IntOp.andi (IntOp.cmpi .ne (sgn x) (sgn 64#32)) (IntOp.cmpi .ne (IntOp.remsi .host x 64#32) 0#32))
    (IntOp.subi (IntOp.divsi .host x 64#32) 1#32)
    (IntOp.divsi .host x 64#32)

/-- At each of the 512 column indices the floor quotient is the natural quotient: the dividend and the divisor are
    both nonnegative, so the signs differ at no column. -/
theorem floorDiv64_col : ∀ k : Fin 512, floorDiv64 (BitVec.ofNat 32 k.val) = BitVec.ofNat 32 (k.val / 64) := by
  decide +kernel

/-- A row index below 8 and a quotient of a column index below 512 are equal as words exactly when they are equal. -/
theorem row_eq_iff (r : Fin 8) (k : Fin 512) :
    IntOp.cmpi .eq (BitVec.ofNat 32 r.val) (BitVec.ofNat 32 (k.val / 64)) = 1#1 ↔ r.val = k.val / 64 := by
  rw [StableHlo.Predicate.cmpi_eq_iff]
  constructor
  · intro h
    have := congrArg BitVec.toNat h
    simp only [BitVec.toNat_ofNat] at this
    have hr := r.isLt; have hk := k.isLt
    omega
  · intro h; rw [h]

/-! ## The array as a pure term -/

section Term
variable {F : FTy → Type} [FloatOps F]

/-- The column index of each entry of a 1×512 row, as words. -/
def cols : IVec S1x512 32 := broadcastInDim S1x512 ![1] Gen.bcast_S512_S1x512_1 (iotaInDim S512 32 0)

/-- The divisor 64, a scalar. -/
def c64 : IVec S_ 32 := constantI S_ 32 64#32

/-- Column index floor-divided by 64, as the program computes it. -/
def quot : IVec S1x512 32 :=
  select
    (andi (cmpi .ne (signi cols) (broadcastInDim S1x512 ![] Gen.bcast_S_S1x512 (signi c64)))
      (cmpi .ne (Host.remsi cols (broadcastInDim S1x512 ![] Gen.bcast_S_S1x512 c64))
        (broadcastInDim S1x512 ![] Gen.bcast_S_S1x512 (constantI S_ 32 0#32))))
    (subi (Host.divsi cols (broadcastInDim S1x512 ![] Gen.bcast_S_S1x512 c64))
      (broadcastInDim S1x512 ![] Gen.bcast_S_S1x512 (constantI S_ 32 1#32)))
    (Host.divsi cols (broadcastInDim S1x512 ![] Gen.bcast_S_S1x512 c64))

/-- The row index of each entry of the 8×512 rectangle, as words. -/
def rows : IVec S8x512 32 :=
  broadcastInDim S8x512 ![0, 1] Gen.bcast_S8x1_S8x512_0_1 (broadcastInDim S8x1 ![0] Gen.bcast_S8_S8x1_0 (iotaInDim S8 32 0))

/-- The pooling matrix: 1/64 where the row is the column's block of 64, zero elsewhere. -/
def pool : FVec F S8x512 .f32 :=
  select (cmpi .eq rows (broadcastInDim S8x512 ![0, 1] Gen.bcast_S1x512_S8x512_0_1 quot))
    (broadcastInDim S8x512 ![] Gen.bcast_S_S8x512 (constant S_ .f32 0x3C800000#32))
    (broadcastInDim S8x512 ![] Gen.bcast_S_S8x512 (constant S_ .f32 0x00000000#32))

/-- An entry of the pooling matrix: the compare of the row word with the floor quotient of the column word selects
    between the two constants. -/
theorem pool_at (i : S8x512.Idx) :
    pool (F := F) i = Scalar.select (IntOp.cmpi .eq (BitVec.ofNat 32 (i 0).val) (floorDiv64 (BitVec.ofNat 32 (i 1).val)))
      (FloatOps.ofBits .f32 0x3C800000#32) (FloatOps.ofBits .f32 0x00000000#32) := rfl

variable (m : (ℓ : Loc nD τ sig) → Buf (Elt F) ℓ)

set_option maxHeartbeats 4000000 in
/-- What the region finds in the pooling matrix's buffer: the pure term, of no argument. -/
theorem V_main_v11 (c : Dev nD) : Gen.V (F := F) m c main_v11 = pool (F := F) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

end Term

/-! ## The entries, at the ideal instance -/

section Entries
variable (m : (ℓ : Loc nD τ sig) → Buf (Elt Ideal) ℓ)

/-- The pooling matrix the region finds, entry by entry: 1/64 (the pattern 0x3C800000) where the row index is the
    column index's quotient by 64, zero (the pattern 0x00000000) elsewhere. -/
theorem pool_apply (c : Dev nD) (i : S8x512.Idx) :
    (Gen.V (F := Ideal) m c main_v11 : S8x512.Idx → EReal) i
      = if (i 0).val = (i 1).val / 64 then Ideal.ofBits .f32 0x3C800000#32 else Ideal.ofBits .f32 0x00000000#32 := by
  have h0 : (i 0).val < 8 := (i 0).isLt
  have h1 : (i 1).val < 512 := (i 1).isLt
  have hq : floorDiv64 (BitVec.ofNat 32 (i 1).val) = BitVec.ofNat 32 ((i 1).val / 64) := floorDiv64_col ⟨(i 1).val, h1⟩
  have hr : IntOp.cmpi .eq (BitVec.ofNat 32 (i 0).val) (BitVec.ofNat 32 ((i 1).val / 64)) = (1 : BitVec 1) ↔ (i 0).val = (i 1).val / 64 :=
    row_eq_iff ⟨(i 0).val, h0⟩ ⟨(i 1).val, h1⟩
  rw [V_main_v11 m c, pool_at, hq]
  unfold Scalar.select
  by_cases h : (i 0).val = (i 1).val / 64
  · rw [if_pos h, if_pos (hr.mpr h)]; rfl
  · rw [if_neg h, if_neg (fun hc => h (hr.mp hc))]; rfl

/-- The pattern 0x3C800000 denotes 1/64 = 2⁻⁶. -/
theorem ofBits_inv64 : Ideal.ofBits .f32 0x3C800000#32 = (((1 : ℝ) / 64 : ℝ) : EReal) := by
  simp [Ideal.ofBits, Ideal.ieee, -EReal.coe_mul]; norm_num

/-- The pattern 0x00000000 denotes zero. -/
theorem ofBits_zero : Ideal.ofBits .f32 0x00000000#32 = 0 := by
  simp [Ideal.ofBits, Ideal.ieee]

/-- The same with the two constants as the numbers they denote: 1/64 on the block diagonal, zero off it. -/
theorem pool_apply_real (c : Dev nD) (i : S8x512.Idx) :
    (Gen.V (F := Ideal) m c main_v11 : S8x512.Idx → EReal) i
      = if (i 0).val = (i 1).val / 64 then (((1 : ℝ) / 64 : ℝ) : EReal) else 0 := by
  rw [pool_apply m c i, ofBits_inv64, ofBits_zero]

end Entries

end Cert.ReferenceIdeal.PoolMatrix
-- ==== Proof.RefValue.lean ====
/-
  The reference's two result arrays after the run, as functions of the arguments.

  Grid point t handles rows 512 t … 512 t + 511, that is bags 8 t … 8 t + 7. Its first store is block t (512 rows) of
  the instance array; its second, the pooling matrix times that block, is block t (8 rows) of the bag array, because
  the pooling matrix is block diagonal with 1/64 on each bag's 64 rows. The 32 points' blocks tile both arrays.
-/
import proofs.«176992_g2000502745572654_pallasbulk_917_18_alg».proof.Proof.Gen.ReferenceIdeal.Frame
import proofs.«176992_g2000502745572654_pallasbulk_917_18_alg».proof.Proof.RefPay
import proofs.«176992_g2000502745572654_pallasbulk_917_18_alg».proof.Proof.RefHost
import proofs.«176992_g2000502745572654_pallasbulk_917_18_alg».proof.Proof.PoolMatrix
import Idealize.ShloMosaic.Lib.Pipeline.Value
import Idealize.ShloMosaic.Lib.StableHlo.Run
import Idealize.ShloMosaic.Lib.Tactic

noncomputable section

namespace Cert.ReferenceIdeal.Val

open Idealize.ShloMosaic Idealize.ShloMosaic.TcCoe Idealize.SL.Sem Idealize.ShloMosaic.ValueIdx
open Idealize.ShloMosaic.Pipeline (Dat)
open Cert.ReferenceIdeal Cert.ReferenceIdeal.Gen Cert.MilSpec Cert.ReferenceIdeal.Pay

variable (m : (ℓ : Loc nD τ sig) → Buf (Elt Ideal) ℓ) (ρ : Dev nD → PrngReg)

theorem hz : (![0, 0] : Fin 2 → Nat) = fun _ => 0 := funext fun a => by fin_cases a <;> rfl

/-- The hidden layer's weights. -/
abbrev w1A (c : Dev nD) : S512x512.Idx → EReal := m ((c : Thread nD τ).loc main_arg1)
/-- The classifier's weight from hidden unit j to class q, and its bias at class q. -/
abbrev w2F (c : Dev nD) : Fin 512 → Fin 128 → EReal := fun j q => (m ((c : Thread nD τ).loc main_arg3) : S512x128.Idx → EReal) (ix2 j q)
abbrev b2F (c : Dev nD) : Fin 128 → EReal := fun q => b2A m c (ix2 (0 : Fin 1) q)

/-- The instance scores and the bag means of the arguments. -/
def instA (c : Dev nD) : S16384x128.Idx → EReal := inst (rowsA m c) (w1A m c) (b1A m c) (w2F m c) (b2F m c)
def bagA (c : Dev nD) : S256x128.Idx → EReal := bag (rowsA m c) (w1A m c) (b1A m c) (w2F m c) (b2F m c)

/-- The block index maps over the grid: the row-blocked windows are at block t, the others at block 0. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The pooling window is the whole pooling matrix at every point. -/
theorem iblk0_eq (c : Dev nD) (t : Fin cfg0.N) :
    (iblk m c 0 t : Vec Ideal S8x512 .f32) = (V (F := Ideal) m c main_v11 : S8x512.Idx → EReal) := by
  obtain ⟨e0, e1, -⟩ := idx_facts t
  funext y
  unfold iblk
  rw [View.read_apply]
  show V m c main_v11 _ = V m c main_v11 y
  congr 1
  funext a
  apply Fin.ext
  match a with
  | ⟨0, _⟩ => show win0_0.index t (0 : Fin 2) * 8 + 1 * (y 0).val = (y 0).val; rw [e0]; omega
  | ⟨1, _⟩ => show win0_0.index t (1 : Fin 2) * 512 + 1 * (y 1).val = (y 1).val; rw [e1]; omega

/-- Block t of the rows: row p of the block is row 512 t + p. -/
theorem iblk1_apply (c : Dev nD) (t : Fin cfg0.N) (y : S512x512.Idx) (k : S16384x512.Idx)
    (hk0 : (k 0).val = 512 * t.val + (y 0).val) (hk1 : (k 1).val = (y 1).val) :
    (iblk m c 1 t : Vec Ideal S512x512 .f32) y = (V (F := Ideal) m c main_v0 : S16384x512.Idx → EReal) k := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 512 + 1 * (y 0).val = (k 0).val; rw [e0, hk0]; omega
  | ⟨1, _⟩ => show win0_1.index t (1 : Fin 2) * 512 + 1 * (y 1).val = (k 1).val; rw [e1, hk1]; omega

theorem iblk2_eq (c : Dev nD) (t : Fin cfg0.N) :
    (iblk m c 2 t : Vec Ideal S512x512 .f32) = (V (F := Ideal) m c main_arg1 : S512x512.Idx → EReal) := by
  obtain ⟨-, -, -, -, e0, e1, -⟩ := idx_facts t
  funext y
  unfold iblk
  rw [View.read_apply]
  show V m c main_arg1 _ = V m c main_arg1 y
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

theorem iblk3_eq (c : Dev nD) (t : Fin cfg0.N) :
    (iblk m c 3 t : Vec Ideal S1x512 .f32) = (V (F := Ideal) m c main_v1 : S1x512.Idx → EReal) := by
  obtain ⟨-, -, -, -, -, -, e0, e1, -⟩ := idx_facts t
  funext y
  unfold iblk
  rw [View.read_apply]
  show V m c main_v1 _ = V m c main_v1 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

theorem iblk4_eq (c : Dev nD) (t : Fin cfg0.N) :
    (iblk m c 4 t : Vec Ideal S512x128 .f32) = (V (F := Ideal) m c main_arg3 : S512x128.Idx → EReal) := by
  obtain ⟨-, -, -, -, -, -, -, -, e0, e1, -⟩ := idx_facts t
  funext y
  unfold iblk
  rw [View.read_apply]
  show V m c main_arg3 _ = V m c main_arg3 y
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 128 + 1 * (y 1).val = (y 1).val; rw [e1]; omega

theorem iblk5_eq (c : Dev nD) (t : Fin cfg0.N) :
    (iblk m c 5 t : Vec Ideal S1x128 .f32) = (V (F := Ideal) m c main_v2 : S1x128.Idx → EReal) := by
  obtain ⟨-, -, -, -, -, -, -, -, -, -, e0, e1, -⟩ := idx_facts t
  funext y
  unfold iblk
  rw [View.read_apply]
  show V m c main_v2 _ = V m c main_v2 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- What point t stores first, at (p, q): the instance array at row 512 t + p, class q. -/
theorem store1_eq (c : Dev nD) (t : Fin cfg0.N) (y : S512x128.Idx) (i : S16384x128.Idx)
    (h0 : (i 0).val = 512 * t.val + (y 0).val) (h1 : (i 1).val = (y 1).val) :
    k0_pay1 (F := Ideal) (iblk m c 1 t) (iblk m c 2 t) (iblk m c 3 t) (iblk m c 4 t) (iblk m c 5 t) y = instA m c i := by
  obtain ⟨p, q, rfl⟩ : ∃ (p : Fin 512) (q : Fin 128), y = ix2 p q := ⟨y 0, y 1, eq_ix2 y⟩
  refine (pay1_apply (iblk m c 1 t) (iblk m c 2 t) (iblk m c 3 t) (iblk m c 4 t) (iblk m c 5 t) p q).trans ?_
  have hq : q = i 1 := Fin.ext h1.symm
  have e0 : (fun k : Fin 512 => (iblk m c 1 t : Vec Ideal S512x512 .f32) (ix2 p k)) = fun k => rowsA m c (ix2 (i 0) k) :=
    funext fun k => (iblk1_apply m c t (ix2 p k) (ix2 (i 0) k) h0 rfl).trans (congrFun (V_v0 m c) _)
  have e1 : (iblk m c 2 t : Vec Ideal S512x512 .f32) = w1A m c := (iblk2_eq m c t).trans (V_main_arg1 m c)
  have e2 : (iblk m c 3 t : Vec Ideal S1x512 .f32) = b1A m c := (iblk3_eq m c t).trans (V_v1 m c)
  have e3 : (fun (j : Fin 512) (c' : Fin 128) => (iblk m c 4 t : Vec Ideal S512x128 .f32) (ix2 j c')) = w2F m c :=
    funext fun j => funext fun c' => congrFun ((iblk4_eq m c t).trans (V_main_arg3 m c)) _
  have e4 : (fun c' : Fin 128 => (iblk m c 5 t : Vec Ideal S1x128 .f32) (ix2 (0 : Fin 1) c')) = b2F m c :=
    funext fun c' => congrFun ((iblk5_eq m c t).trans (V_v2 m c)) _
  rw [e0, e1, e2, e3, e4, hq]
  rfl

/-- The pooling window holds 1/64 on the 64 rows of each bag and zero elsewhere. -/
theorem pool_blk (c : Dev nD) (t : Fin cfg0.N) (b : Fin 8) (k : Fin 512) :
    (iblk m c 0 t : Vec Ideal S8x512 .f32) (ix2 b k) = if b.val = k.val / 64 then invE else zeroE :=
  (congrFun (iblk0_eq m c t) _).trans (Cert.ReferenceIdeal.PoolMatrix.pool_apply m c (ix2 b k))

/-- What point t stores second, at (b, q): the bag array at bag 8 t + b, class q. -/
theorem store2_eq (c : Dev nD) (t : Fin cfg0.N) (y : S8x128.Idx) (i : S256x128.Idx)
    (h0 : (i 0).val = 8 * t.val + (y 0).val) (h1 : (i 1).val = (y 1).val) :
    k0_pay2 (F := Ideal) (iblk m c 1 t) (iblk m c 2 t) (iblk m c 3 t) (iblk m c 4 t) (iblk m c 5 t) (iblk m c 0 t) y = bagA m c i := by
  obtain ⟨b, q, rfl⟩ : ∃ (b : Fin 8) (q : Fin 128), y = ix2 b q := ⟨y 0, y 1, eq_ix2 y⟩
  refine (pay2_apply (iblk m c 1 t) (iblk m c 2 t) (iblk m c 3 t) (iblk m c 4 t) (iblk m c 5 t) (iblk m c 0 t)
    (pool_blk m c t) b q).trans ?_
  show _ = (∑ j : Fin 64, instA m c (ix2 (bagRow (i 0) j) (i 1))) * invE
  refine congrArg (· * invE) (Finset.sum_congr rfl fun j _ => ?_)
  refine store1_eq m c t (ix2 (blkRow b j) q) (ix2 (bagRow (i 0) j) (i 1)) ?_ h1
  show 64 * (i 0).val + j.val = 512 * t.val + (64 * b.val + j.val)
  have h0' : (i 0).val = 8 * t.val + b.val := h0
  omega

/-- What point t writes back through the instance window is block t of the instance array. -/
theorem flushed6_eq (c : Dev nD) (t : Fin cfg0.N) :
    (dats m 0 c).flushed 6 t = ((cfg0.win 6).blk t).view.read (Elt Ideal) (instA m c) := by
  show (cfg0.win 6).cut (grid0.coords t) ((dats m 0 c).after 6 t) = _
  rw [after0_6]
  unfold out0_6
  rw [View.canon_unit_zero hz]
  simp only [View.ld_unit_zero (S := S512x512) hz, View.ld_unit_zero (S := S1x512) hz, View.ld_unit_zero (S := S512x128) hz,
    View.ld_unit_zero (S := S1x128) hz, View.ld_unit_zero (S := S8x512) hz]
  obtain ⟨-, -, -, -, -, -, -, -, -, -, -, -, e0, e1, -⟩ := idx_facts t
  funext y
  show k0_pay1 (F := Ideal) (iblk m c 1 t) (iblk m c 2 t) (iblk m c 3 t) (iblk m c 4 t) (iblk m c 5 t) y
    = instA m c (((cfg0.win 6).blk t).view.emb y)
  refine store1_eq m c t y _ ?_ ?_
  · show win0_6.index t (0 : Fin 2) * 512 + 1 * (y 0).val = 512 * t.val + (y 0).val; rw [e0]; omega
  · show win0_6.index t (1 : Fin 2) * 128 + 1 * (y 1).val = (y 1).val; rw [e1]; omega

/-- What point t writes back through the bag window is block t of the bag array. -/
theorem flushed7_eq (c : Dev nD) (t : Fin cfg0.N) :
    (dats m 0 c).flushed 7 t = ((cfg0.win 7).blk t).view.read (Elt Ideal) (bagA m c) := by
  show (cfg0.win 7).cut (grid0.coords t) ((dats m 0 c).after 7 t) = _
  rw [after0_7]
  unfold out0_7
  rw [View.canon_unit_zero hz]
  simp only [View.ld_unit_zero (S := S512x512) hz, View.ld_unit_zero (S := S1x512) hz, View.ld_unit_zero (S := S512x128) hz,
    View.ld_unit_zero (S := S1x128) hz, View.ld_unit_zero (S := S8x512) hz]
  obtain ⟨-, -, -, -, -, -, -, -, -, -, -, -, -, -, e0, e1⟩ := idx_facts t
  funext y
  show k0_pay2 (F := Ideal) (iblk m c 1 t) (iblk m c 2 t) (iblk m c 3 t) (iblk m c 4 t) (iblk m c 5 t) (iblk m c 0 t) y
    = bagA m c (((cfg0.win 7).blk t).view.emb y)
  refine store2_eq m c t y _ ?_ ?_
  · show win0_7.index t (0 : Fin 2) * 8 + 1 * (y 0).val = 8 * t.val + (y 0).val; rw [e0]; omega
  · show win0_7.index t (1 : Fin 2) * 128 + 1 * (y 1).val = (y 1).val; rw [e1]; omega

/-- An index is in point t's block of the instance array iff each coordinate is in the block's range. -/
theorem mem_blk6 (t : Fin cfg0.N) (i : S16384x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v12_0).slice (win0_6.rect t)).set ↔ _
  rw [View.set_slice_whole, Rect.mem_set_unit]
  exact Iff.rfl

theorem mem_blk7 (t : Fin cfg0.N) (i : S256x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v12_1).slice (win0_7.rect t)).set ↔ _
  rw [View.set_slice_whole, Rect.mem_set_unit]
  exact Iff.rfl

/-- Row r of the instance array is in the block of point r / 512. -/
theorem cover6 (i : S16384x128.Idx) : ∃ t : Fin cfg0.N, (cfg0.win 6).flush t = true ∧ i ∈ ((cfg0.win 6).blk t).view.set := by
  have hi0 : (i 0).val < 16384 := (i 0).isLt
  have hi1 : (i 1).val < 128 := (i 1).isLt
  have hN : cfg0.N = 32 := N_0
  refine ⟨⟨(i 0).val / 512, by rw [hN]; omega⟩, flush0_6 _, ?_⟩
  obtain ⟨-, -, -, -, -, -, -, -, -, -, -, -, e0, e1, -⟩ := idx_facts ⟨(i 0).val / 512, by rw [hN]; omega⟩
  rw [mem_blk6]
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 128 ≤ (i 1).val ∧ (i 1).val < win0_6.index _ (1 : Fin 2) * 128 + 128
    rw [e1]; omega

/-- Bag b of the bag array is in the block of point b / 8. -/
theorem cover7 (i : S256x128.Idx) : ∃ t : Fin cfg0.N, (cfg0.win 7).flush t = true ∧ i ∈ ((cfg0.win 7).blk t).view.set := by
  have hi0 : (i 0).val < 256 := (i 0).isLt
  have hi1 : (i 1).val < 128 := (i 1).isLt
  have hN : cfg0.N = 32 := N_0
  refine ⟨⟨(i 0).val / 8, by rw [hN]; omega⟩, flush0_7 _, ?_⟩
  obtain ⟨-, -, -, -, -, -, -, -, -, -, -, -, -, -, e0, e1⟩ := idx_facts ⟨(i 0).val / 8, by rw [hN]; omega⟩
  rw [mem_blk7]
  intro a
  match a with
  | ⟨0, _⟩ =>
    show win0_7.index _ (0 : Fin 2) * 8 ≤ (i 0).val ∧ (i 0).val < win0_7.index _ (0 : Fin 2) * 8 + 8
    rw [e0]; show (i 0).val / 8 * 8 ≤ (i 0).val ∧ (i 0).val < (i 0).val / 8 * 8 + 8; omega
  | ⟨1, _⟩ =>
    show win0_7.index _ (1 : Fin 2) * 128 ≤ (i 1).val ∧ (i 1).val < win0_7.index _ (1 : Fin 2) * 128 + 128
    rw [e1]; omega

/-- The instance window's array after the run. -/
theorem final6 (c : Dev nD) : (dats m 0 c).arrAt 6 cfg0.N = instA m c :=
  (dats m 0 c).arrAt_eq_of_cover 6 (instA m c) (fun t _ => flushed6_eq m c t) cover6

/-- The bag window's array after the run. -/
theorem final7 (c : Dev nD) : (dats m 0 c).arrAt 7 cfg0.N = bagA m c :=
  (dats m 0 c).arrAt_eq_of_cover 7 (bagA m c) (fun t _ => flushed7_eq m c t) cover7

/-- The instance array viewed as 256 bags of 64 rows. -/
abbrev inst3 (c : Dev nD) : S256x64x128.Idx → EReal :=
  shapeCast S256x64x128 (instA m c) Facts₀.shapeCasts_S16384x128_S256x64x128

/-- The host's last line views the instance window's array, as the run leaves it, as 256 × 64 × 128. -/
theorem tail_v13 (c : Dev nD) :
    Pipeline.afterTail₀ cfgs (dats m) 0 (V0 m) [hostOps1] c main_v13 = inst3 m c := by
  unfold Pipeline.afterTail₀
  show StableHlo.after hostOps1 _ (Proc.devRef .tc main_v13) = _
  after_results
  have e : Pipeline.withArrays (cfgs 0).spec c (V0 m c) (fun w => (dats m 0 c).arrAt w (cfgs 0).N)
      (Proc.devRef .tc main_v12_0) = instA m c :=
    (Pipeline.withArrays_arr spec0 launch0.win.arr_inj c _ _ 6).trans (final6 m c)
  rw [e]
  rfl

/-- The run, read: the bag result at the bag means, the three-axis instance result at the instance scores, the
    arguments unchanged. -/
theorem run : θ_run defs (onTc (τ := τ) (main (F := Ideal))) ⟨m, fun _ => 0, ρ⟩ fun r => ∀ c : Dev nD,
      r.2.mem ((c : Thread nD τ).loc main_v12_1) = bagA m c
      ∧ r.2.mem ((c : Thread nD τ).loc main_v13) = inst3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 7).trans (final7 m c),
      ((h c).2 main_v13 (Pipeline.mem_restRefs_of main_v13 (by decide) (by decide))).trans (tail_v13 m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.ReferenceIdeal.Val

end
-- ==== Proof.SpecArgs.lean ====
/-
  The two results as functions of the five arguments themselves: the bags viewed as 16384 rows, the biases as
  one-row matrices, then the bag means and the instance scores viewed as 256 bags of 64 rows.
-/
import proofs.«176992_g2000502745572654_pallasbulk_917_18_alg».proof.Proof.Spec
import Idealize.ShloMosaic.PureOps

noncomputable section

namespace Cert.MilSpec

open Idealize.ShloMosaic Idealize.ShloMosaic.ValueIdx

variable (h0 : (⟨3, ![256, 64, 512]⟩ : Shape).ShapeCasts ⟨2, ![16384, 512]⟩)
  (h2 : (⟨1, ![512]⟩ : Shape).ShapeCasts ⟨2, ![1, 512]⟩) (h4 : (⟨1, ![128]⟩ : Shape).ShapeCasts ⟨2, ![1, 128]⟩)
  (h5 : (⟨2, ![16384, 128]⟩ : Shape).ShapeCasts ⟨3, ![256, 64, 128]⟩)

/-- The bag means of the arguments. -/
def bagOf (a0 : (⟨3, ![256, 64, 512]⟩ : Shape).Idx → EReal) (a1 : (⟨2, ![512, 512]⟩ : Shape).Idx → EReal)
    (a2 : (⟨1, ![512]⟩ : Shape).Idx → EReal) (a3 : (⟨2, ![512, 128]⟩ : Shape).Idx → EReal)
    (a4 : (⟨1, ![128]⟩ : Shape).Idx → EReal) : (⟨2, ![256, 128]⟩ : Shape).Idx → EReal :=
  bag (shapeCast ⟨2, ![16384, 512]⟩ a0 h0) a1 (shapeCast ⟨2, ![1, 512]⟩ a2 h2) (fun j q => a3 (ix2 j q))
    (fun q => shapeCast ⟨2, ![1, 128]⟩ a4 h4 (ix2 (0 : Fin 1) q))

/-- The instance scores of the arguments, as 256 bags of 64 rows. -/
def inst3Of (a0 : (⟨3, ![256, 64, 512]⟩ : Shape).Idx → EReal) (a1 : (⟨2, ![512, 512]⟩ : Shape).Idx → EReal)
    (a2 : (⟨1, ![512]⟩ : Shape).Idx → EReal) (a3 : (⟨2, ![512, 128]⟩ : Shape).Idx → EReal)
    (a4 : (⟨1, ![128]⟩ : Shape).Idx → EReal) : (⟨3, ![256, 64, 128]⟩ : Shape).Idx → EReal :=
  shapeCast ⟨3, ![256, 64, 128]⟩
    (inst (shapeCast ⟨2, ![16384, 512]⟩ a0 h0) a1 (shapeCast ⟨2, ![1, 512]⟩ a2 h2) (fun j q => a3 (ix2 j q))
      (fun q => shapeCast ⟨2, ![1, 128]⟩ a4 h4 (ix2 (0 : Fin 1) q))) h5

end Cert.MilSpec

end
-- ==== Proof.lean ====
/-
  The certificate of the multiple-instance model kernel against its reference.

  Both programs compute, for 256 bags of 64 rows of 512 features, every row's 128 class scores — a rectified hidden
  layer of 512 units followed by a linear classifier — and each bag's mean score per class. The kernel works on blocks
  of 64 bags, multiplies by a classifier padded with zero columns to 256 columns of which it keeps the first 128, and
  forms a bag's mean as the sum of its 64 rows' scores times 1/64. The reference works on blocks of 8 bags and forms
  the means as the product of a block-diagonal 8 × 512 matrix, 1/64 on each bag's rows and zero elsewhere, with the
  block's scores. On the extended reals the zero entries contribute zero and a nonnegative finite scalar distributes
  over a sum, so the two means are equal with no condition on the entries; the scores are literally the same sums.
  The three frames are the generated ones; the idealization rewrote nothing.
-/
import proofs.«176992_g2000502745572654_pallasbulk_917_18_alg».proof.Defs
import proofs.«176992_g2000502745572654_pallasbulk_917_18_alg».proof.Proof.Gen.Kernel
import proofs.«176992_g2000502745572654_pallasbulk_917_18_alg».proof.Proof.Gen.Kernel.Frame
import proofs.«176992_g2000502745572654_pallasbulk_917_18_alg».proof.Proof.Gen.KernelIdeal
import proofs.«176992_g2000502745572654_pallasbulk_917_18_alg».proof.Proof.Gen.KernelIdeal.Frame
import proofs.«176992_g2000502745572654_pallasbulk_917_18_alg».proof.Proof.Gen.ReferenceIdeal
import proofs.«176992_g2000502745572654_pallasbulk_917_18_alg».proof.Proof.Gen.ReferenceIdeal.Frame
import proofs.«176992_g2000502745572654_pallasbulk_917_18_alg».proof.Proof.Gen.Pre_finite_inputs
import proofs.«176992_g2000502745572654_pallasbulk_917_18_alg».proof.Proof.KernelValue
import proofs.«176992_g2000502745572654_pallasbulk_917_18_alg».proof.Proof.RefValue
import proofs.«176992_g2000502745572654_pallasbulk_917_18_alg».proof.Proof.SpecArgs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The kernel's bag means and instance scores as functions of its five arguments. -/
theorem kernel_bag (m : (ℓ : Loc Cert.KernelIdeal.nD Cert.KernelIdeal.τ Cert.KernelIdeal.sig) → Buf (Elt Ideal) ℓ)
    (c : Dev Cert.KernelIdeal.nD) :
    Cert.KernelIdeal.Val.bagA m c
      = Cert.MilSpec.bagOf Cert.KernelIdeal.Facts₀.shapeCasts_S256x64x512_S16384x512 Cert.KernelIdeal.Facts₀.shapeCasts_S512_S1x512
          Cert.KernelIdeal.Facts₀.shapeCasts_S128_S1x128
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := rfl

theorem kernel_inst3 (m : (ℓ : Loc Cert.KernelIdeal.nD Cert.KernelIdeal.τ Cert.KernelIdeal.sig) → Buf (Elt Ideal) ℓ)
    (c : Dev Cert.KernelIdeal.nD) :
    Cert.KernelIdeal.Val.inst3 m c
      = Cert.MilSpec.inst3Of Cert.KernelIdeal.Facts₀.shapeCasts_S256x64x512_S16384x512 Cert.KernelIdeal.Facts₀.shapeCasts_S512_S1x512
          Cert.KernelIdeal.Facts₀.shapeCasts_S128_S1x128 Cert.KernelIdeal.Facts₀.shapeCasts_S16384x128_S256x64x128
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := rfl

/-- The reference's bag means and instance scores as the same functions of its five arguments. -/
theorem ref_bag (m : (ℓ : Loc Cert.ReferenceIdeal.nD Cert.ReferenceIdeal.τ Cert.ReferenceIdeal.sig) → Buf (Elt Ideal) ℓ)
    (c : Dev Cert.ReferenceIdeal.nD) :
    Cert.ReferenceIdeal.Val.bagA m c
      = Cert.MilSpec.bagOf Cert.KernelIdeal.Facts₀.shapeCasts_S256x64x512_S16384x512 Cert.KernelIdeal.Facts₀.shapeCasts_S512_S1x512
          Cert.KernelIdeal.Facts₀.shapeCasts_S128_S1x128
          (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg3))
          (m ((c : Thread Cert.ReferenceIdeal.nD Cert.ReferenceIdeal.τ).loc Cert.ReferenceIdeal.main_arg4)) := rfl

theorem ref_inst3 (m : (ℓ : Loc Cert.ReferenceIdeal.nD Cert.ReferenceIdeal.τ Cert.ReferenceIdeal.sig) → Buf (Elt Ideal) ℓ)
    (c : Dev Cert.ReferenceIdeal.nD) :
    Cert.ReferenceIdeal.Val.inst3 m c
      = Cert.MilSpec.inst3Of Cert.KernelIdeal.Facts₀.shapeCasts_S256x64x512_S16384x512 Cert.KernelIdeal.Facts₀.shapeCasts_S512_S1x512
          Cert.KernelIdeal.Facts₀.shapeCasts_S128_S1x128 Cert.KernelIdeal.Facts₀.shapeCasts_S16384x128_S256x64x128
          (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg3))
          (m ((c : Thread Cert.ReferenceIdeal.nD Cert.ReferenceIdeal.τ).loc Cert.ReferenceIdeal.main_arg4)) := rfl

/-- From memories that agree on the arguments both programs end with the bag means and the instance scores of those
    arguments: the same two functions. -/
theorem algebraic : Cert.algebraic_KernelIdeal_ReferenceIdeal := by
  intro m ρ m' ρ' _ hagree
  refine ⟨fun c => Cert.KernelIdeal.Val.bagA m c, fun c => Cert.KernelIdeal.Val.inst3 m c,
    Cert.KernelIdeal.Val.run m ρ, ?_⟩
  refine (θ_run Cert.ReferenceIdeal.defs _ _).mono (fun _ h c => ?_) (Cert.ReferenceIdeal.Val.run m' ρ')
  obtain ⟨h1, h2, h3⟩ := h c
  obtain ⟨a0, a1, a2, a3, a4⟩ := hagree c
  refine ⟨h1.trans ?_, h2.trans ?_, h3⟩
  · show Cert.ReferenceIdeal.Val.bagA m' c = Cert.KernelIdeal.Val.bagA m c
    rw [ref_bag, kernel_bag, a0, a1, a2, a3, a4]
  · show Cert.ReferenceIdeal.Val.inst3 m' c = Cert.KernelIdeal.Val.inst3 m c
    rw [ref_inst3, kernel_inst3, a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
